-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S65536x1000 : Shape := ⟨2, ![65536, 1000]⟩
abbrev S65536x1 : Shape := ⟨2, ![65536, 1]⟩
abbrev S65536x4x128 : Shape := ⟨3, ![65536, 4, 128]⟩
abbrev S65536x2 : Shape := ⟨2, ![65536, 2]⟩
abbrev S64x128 : Shape := ⟨2, ![64, 128]⟩
abbrev S128 : Shape := ⟨1, ![128]⟩
abbrev S128x128 : Shape := ⟨2, ![128, 128]⟩
abbrev S1000x128 : Shape := ⟨2, ![1000, 128]⟩
abbrev S2x64 : Shape := ⟨2, ![2, 64]⟩
abbrev S64 : Shape := ⟨1, ![64]⟩
abbrev S512x256 : Shape := ⟨2, ![512, 256]⟩
abbrev S256 : Shape := ⟨1, ![256]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S65536x1000 : S_.BroadcastsInDim S65536x1000 (![] : Fin 0 → Fin S65536x1000.rank)
  reducesTo_S65536x1000_S_d0_1 : S65536x1000.ReducesTo [0, 1] S_
  bcast_S_S65536x1 : S_.BroadcastsInDim S65536x1 (![] : Fin 0 → Fin S65536x1.rank)
  reducesTo_S65536x1_S_d0_1 : S65536x1.ReducesTo [0, 1] S_
  bcast_S_S65536x4x128 : S_.BroadcastsInDim S65536x4x128 (![] : Fin 0 → Fin S65536x4x128.rank)
  reducesTo_S65536x4x128_S_d0_1_2 : S65536x4x128.ReducesTo [0, 1, 2] S_
  bcast_S_S65536x2 : S_.BroadcastsInDim S65536x2 (![] : Fin 0 → Fin S65536x2.rank)
  reducesTo_S65536x2_S_d0_1 : S65536x2.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1000x128 : S_.BroadcastsInDim S1000x128 (![] : Fin 0 → Fin S1000x128.rank)
  reducesTo_S1000x128_S_d0_1 : S1000x128.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S384x128 : S_.BroadcastsInDim S384x128 (![] : Fin 0 → Fin S384x128.rank)
  reducesTo_S384x128_S_d0_1 : S384x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg28 : FVec F S32x1 .f32) (main_arg29 : FVec F S1 .f32) (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  let main_v139 : FVec F S32x1 .f32 := Host.absf main_arg28
  let main_cst_54 : FVec F S_ .f32 := constant S_ .f32 0x7F800000#32
  let main_v140 : FVec F S32x1 .f32 := broadcastInDim S32x1 ![] bcast_S_S32x1 main_cst_54
  let main_v141 : IVec S32x1 1 := cmpf .olt main_v139 main_v140
  let main_c_55 : IVec S_ 1 := constantI S_ 1 1#1
  let main_v142 : IVec S_ 1 := (fun x v => Host.reduce IntOp.andi x v reducesTo_S32x1_S_d0_1 h_S_) main_v141 main_c_55
  let main_v143 : IVec S_ 1 := andi main_v138 main_v142
  let main_v144 : FVec F S1 .f32 := Host.absf main_arg29
  let main_cst_56 : FVec F S_ .f32 := constant S_ .f32 0x7F800000#32
  let main_v145 : FVec F S1 .f32 := broadcastInDim S1 ![] bcast_S_S1 main_cst_56
  let main_v146 : IVec S1 1 := cmpf .olt main_v144 main_v145
  let main_c_57 : IVec S_ 1 := constantI S_ 1 1#1
  let main_v147 : IVec S_ 1 := (fun x v => Host.reduce IntOp.andi x v reducesTo_S1_S_d0 h_S_) main_v146 main_c_57
  let main_v148 : IVec S_ 1 := andi main_v143 main_v147
  main_v148

def fn_part7 {F : FTy → Type} [FloatOps F] (main_arg25 : FVec F S1 .f32) (main_arg26 : FVec F S64x32 .f32) (main_arg27 : FVec F S32 .f32) (main_arg28 : FVec F S32x1 .f32) (main_arg29 : FVec F S1 .f32) (main_v118 : IVec S_ 1) (main_v119 : FVec F S32x1 .f32) : IVec S_ 1 :=
  let main_cst_46 : FVec F S_ .f32 := constant S_ .f32 0x7F800000#32
  let main_v120 : FVec F S32x1 .f32 := broadcastInDim S32x1 ![] bcast_S_S32x1 main_cst_46
  let main_v121 : IVec S32x1 1 := cmpf .olt main_v119 main_v120
  let main_c_47 : IVec S_ 1 := constantI S_ 1 1#1
  let main_v122 : IVec S_ 1 := (fun x v => Host.reduce IntOp.andi x v reducesTo_S32x1_S_d0_1 h_S_) main_v121 main_c_47
  let main_v123 : IVec S_ 1 := andi main_v118 main_v122
  let main_v124 : FVec F S1 .f32 := Host.absf main_arg25
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S64x32 .f32 := Host.absf main_arg26
  let main_cst_50 : FVec F S_ .f32 := constant S_ .f32 0x7F800000#32
  let main_v130 : FVec F S64x32 .f32 := broadcastInDim S64x32 ![] bcast_S_S64x32 main_cst_50
  let main_v131 : IVec S64x32 1 := cmpf .olt main_v129 main_v130
  let main_c_51 : IVec S_ 1 := constantI S_ 1 1#1
  let main_v132 : IVec S_ 1 := (fun x v => Host.reduce IntOp.andi x v reducesTo_S64x32_S_d0_1 h_S_) main_v131 main_c_51
  let main_v133 : IVec S_ 1 := andi main_v128 main_v132
  let main_v134 : FVec F S32 .f32 := Host.absf main_arg27
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_arg28 main_arg29 main_v133 main_v136

def fn_part6 {F : FTy → Type} [FloatOps F] (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x32 .f32 := Host.absf main_arg22
  let main_cst_42 : FVec F S_ .f32 := constant S_ .f32 0x7F800000#32
  let main_v110 : FVec F S64x32 .f32 := broadcastInDim S64x32 ![] bcast_S_S64x32 main_cst_42
  let main_v111 : IVec S64x32 1 := cmpf .olt main_v109 main_v110
  let main_c_43 : IVec S_ 1 := constantI S_ 1 1#1
  let main_v112 : IVec S_ 1 := (fun x v => Host.reduce IntOp.andi x v reducesTo_S64x32_S_d0_1 h_S_) main_v111 main_c_43
  let main_v113 : IVec S_ 1 := andi main_v108 main_v112
  let main_v114 : FVec F S32 .f32 := Host.absf main_arg23
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32x1 .f32 := Host.absf main_arg24
  fn_part7 (F := F) main_arg25 main_arg26 main_arg27 main_arg28 main_arg29 main_v118 main_v119

def fn_part5 {F : FTy → Type} [FloatOps F] (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S384x128 .f32 := Host.absf main_arg18
  let main_cst_34 : FVec F S_ .f32 := constant S_ .f32 0x7F800000#32
  let main_v90 : FVec F S384x128 .f32 := broadcastInDim S384x128 ![] bcast_S_S384x128 main_cst_34
  let main_v91 : IVec S384x128 1 := cmpf .olt main_v89 main_v90
  let main_c_35 : IVec S_ 1 := constantI S_ 1 1#1
  let main_v92 : IVec S_ 1 := (fun x v => Host.reduce IntOp.andi x v reducesTo_S384x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg20
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg21 main_arg22 main_arg23 main_arg24 main_arg25 main_arg26 main_arg27 main_arg28 main_arg29 main_v98 main_v101 main_c_39

def fn_part4 {F : FTy → Type} [FloatOps F] (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v63 : IVec S_ 1) (main_v67 : IVec S_ 1) : IVec S_ 1 :=
  let main_v68 : IVec S_ 1 := andi main_v63 main_v67
  let main_v69 : FVec F S2x64 .f32 := Host.absf main_arg14
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S512x256 .f32 := Host.absf main_arg16
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_v83 main_v84 main_cst_32

def fn_part3 {F : FTy → Type} [FloatOps F] (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1000x128 .f32 := Host.absf main_arg12
  let main_cst_22 : FVec F S_ .f32 := constant S_ .f32 0x7F800000#32
  let main_v60 : FVec F S1000x128 .f32 := broadcastInDim S1000x128 ![] bcast_S_S1000x128 main_cst_22
  let main_v61 : IVec S1000x128 1 := cmpf .olt main_v59 main_v60
  let main_c_23 : IVec S_ 1 := constantI S_ 1 1#1
  let main_v62 : IVec S_ 1 := (fun x v => Host.reduce IntOp.andi x v reducesTo_S1000x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg7 : FVec F S65536x2 .f32) (main_arg8 : FVec F S64x128 .f32) (main_arg9 : FVec F S128 .f32) (main_arg10 : FVec F S128x128 .f32) (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v33 : IVec S_ 1) : IVec S_ 1 :=
  let main_v34 : FVec F S65536x2 .f32 := Host.absf main_arg7
  let main_cst_12 : FVec F S_ .f32 := constant S_ .f32 0x7F800000#32
  let main_v35 : FVec F S65536x2 .f32 := broadcastInDim S65536x2 ![] bcast_S_S65536x2 main_cst_12
  let main_v36 : IVec S65536x2 1 := cmpf .olt main_v34 main_v35
  let main_c_13 : IVec S_ 1 := constantI S_ 1 1#1
  let main_v37 : IVec S_ 1 := (fun x v => Host.reduce IntOp.andi x v reducesTo_S65536x2_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg4 : FVec F S65536x4x128 .f32) (main_arg5 : FVec F S65536x4x128 .f32) (main_arg6 : FVec F S65536x2 .f32) (main_arg7 : FVec F S65536x2 .f32) (main_arg8 : FVec F S64x128 .f32) (main_arg9 : FVec F S128 .f32) (main_arg10 : FVec F S128x128 .f32) (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) (main_v13 : IVec S_ 1) (main_v16 : IVec S65536x1 1) : IVec S_ 1 :=
  let main_c_5 : IVec S_ 1 := constantI S_ 1 1#1
  let main_v17 : IVec S_ 1 := (fun x v => Host.reduce IntOp.andi x v reducesTo_S65536x1_S_d0_1 h_S_) main_v16 main_c_5
  let main_v18 : IVec S_ 1 := andi main_v13 main_v17
  let main_v19 : FVec F S65536x4x128 .f32 := Host.absf main_arg4
  let main_cst_6 : FVec F S_ .f32 := constant S_ .f32 0x7F800000#32
  let main_v20 : FVec F S65536x4x128 .f32 := broadcastInDim S65536x4x128 ![] bcast_S_S65536x4x128 main_cst_6
  let main_v21 : IVec S65536x4x128 1 := cmpf .olt main_v19 main_v20
  let main_c_7 : IVec S_ 1 := constantI S_ 1 1#1
  let main_v22 : IVec S_ 1 := (fun x v => Host.reduce IntOp.andi x v reducesTo_S65536x4x128_S_d0_1_2 h_S_) main_v21 main_c_7
  let main_v23 : IVec S_ 1 := andi main_v18 main_v22
  let main_v24 : FVec F S65536x4x128 .f32 := Host.absf main_arg5
  let main_cst_8 : FVec F S_ .f32 := constant S_ .f32 0x7F800000#32
  let main_v25 : FVec F S65536x4x128 .f32 := broadcastInDim S65536x4x128 ![] bcast_S_S65536x4x128 main_cst_8
  let main_v26 : IVec S65536x4x128 1 := cmpf .olt main_v24 main_v25
  let main_c_9 : IVec S_ 1 := constantI S_ 1 1#1
  let main_v27 : IVec S_ 1 := (fun x v => Host.reduce IntOp.andi x v reducesTo_S65536x4x128_S_d0_1_2 h_S_) main_v26 main_c_9
  let main_v28 : IVec S_ 1 := andi main_v23 main_v27
  let main_v29 : FVec F S65536x2 .f32 := Host.absf main_arg6
  let main_cst_10 : FVec F S_ .f32 := constant S_ .f32 0x7F800000#32
  let main_v30 : FVec F S65536x2 .f32 := broadcastInDim S65536x2 ![] bcast_S_S65536x2 main_cst_10
  let main_v31 : IVec S65536x2 1 := cmpf .olt main_v29 main_v30
  let main_c_11 : IVec S_ 1 := constantI S_ 1 1#1
  let main_v32 : IVec S_ 1 := (fun x v => Host.reduce IntOp.andi x v reducesTo_S65536x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S65536x32 .f32) (main_arg1 : FVec F S65536x32 .f32) (main_arg2 : FVec F S65536x1000 .f32) (main_arg3 : FVec F S65536x1 .f32) (main_arg4 : FVec F S65536x4x128 .f32) (main_arg5 : FVec F S65536x4x128 .f32) (main_arg6 : FVec F S65536x2 .f32) (main_arg7 : FVec F S65536x2 .f32) (main_arg8 : FVec F S64x128 .f32) (main_arg9 : FVec F S128 .f32) (main_arg10 : FVec F S128x128 .f32) (main_arg11 : FVec F S128 .f32) (main_arg12 : FVec F S1000x128 .f32) (main_arg13 : FVec F S128 .f32) (main_arg14 : FVec F S2x64 .f32) (main_arg15 : FVec F S64 .f32) (main_arg16 : FVec F S512x256 .f32) (main_arg17 : FVec F S256 .f32) (main_arg18 : FVec F S384x128 .f32) (main_arg19 : FVec F S128 .f32) (main_arg20 : FVec F S128x64 .f32) (main_arg21 : FVec F S64 .f32) (main_arg22 : FVec F S64x32 .f32) (main_arg23 : FVec F S32 .f32) (main_arg24 : FVec F S32x1 .f32) (main_arg25 : FVec F S1 .f32) (main_arg26 : FVec F S64x32 .f32) (main_arg27 : FVec F S32 .f32) (main_arg28 : FVec F S32x1 .f32) (main_arg29 : FVec F S1 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S65536x1000 .f32 := Host.absf main_arg2
  let main_cst_2 : FVec F S_ .f32 := constant S_ .f32 0x7F800000#32
  let main_v10 : FVec F S65536x1000 .f32 := broadcastInDim S65536x1000 ![] bcast_S_S65536x1000 main_cst_2
  let main_v11 : IVec S65536x1000 1 := cmpf .olt main_v9 main_v10
  let main_c_3 : IVec S_ 1 := constantI S_ 1 1#1
  let main_v12 : IVec S_ 1 := (fun x v => Host.reduce IntOp.andi x v reducesTo_S65536x1000_S_d0_1 h_S_) main_v11 main_c_3
  let main_v13 : IVec S_ 1 := andi main_v8 main_v12
  let main_v14 : FVec F S65536x1 .f32 := Host.absf main_arg3
  let main_cst_4 : FVec F S_ .f32 := constant S_ .f32 0x7F800000#32
  let main_v15 : FVec F S65536x1 .f32 := broadcastInDim S65536x1 ![] bcast_S_S65536x1 main_cst_4
  let main_v16 : IVec S65536x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S65536x32 : Shape := ⟨2, ![65536, 32]⟩
abbrev S65536x1000 : Shape := ⟨2, ![65536, 1000]⟩
abbrev S65536x1 : Shape := ⟨2, ![65536, 1]⟩
abbrev S65536x4x128 : Shape := ⟨3, ![65536, 4, 128]⟩
abbrev S65536x2 : Shape := ⟨2, ![65536, 2]⟩
abbrev S64x128 : Shape := ⟨2, ![64, 128]⟩
abbrev S128 : Shape := ⟨1, ![128]⟩
abbrev S128x128 : Shape := ⟨2, ![128, 128]⟩
abbrev S1000x128 : Shape := ⟨2, ![1000, 128]⟩
abbrev S2x64 : Shape := ⟨2, ![2, 64]⟩
abbrev S64 : Shape := ⟨1, ![64]⟩
abbrev S512x256 : Shape := ⟨2, ![512, 256]⟩
abbrev S256 : Shape := ⟨1, ![256]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1024x32 : Shape := ⟨2, ![1024, 32]⟩
abbrev S1024x1000 : Shape := ⟨2, ![1024, 1000]⟩
abbrev S1024x1 : Shape := ⟨2, ![1024, 1]⟩
abbrev S1024x4x128 : Shape := ⟨3, ![1024, 4, 128]⟩
abbrev S1024x2 : Shape := ⟨2, ![1024, 2]⟩
abbrev S1024x1x128 : Shape := ⟨3, ![1024, 1, 128]⟩
abbrev S1024x128 : Shape := ⟨2, ![1024, 128]⟩
abbrev S1x128 : Shape := ⟨2, ![1, 128]⟩
abbrev S1024x64 : Shape := ⟨2, ![1024, 64]⟩
abbrev S1024x512 : Shape := ⟨2, ![1024, 512]⟩
abbrev S1024x256 : Shape := ⟨2, ![1024, 256]⟩
abbrev S1x256 : Shape := ⟨2, ![1, 256]⟩
abbrev S1x64 : Shape := ⟨2, ![1, 64]⟩
abbrev S1024x384 : Shape := ⟨2, ![1024, 384]⟩
abbrev S1x32 : Shape := ⟨2, ![1, 32]⟩
abbrev S1x1 : Shape := ⟨2, ![1, 1]⟩

abbrev nBuf : Space → Nat
  | .hbm => 31
  | .vmem => 40
  | .smem => 0
  | _ => 0

abbrev bufTy : (tb : Table) → Fin (tcTables nBuf tb) → BufTy
  | .hbm, ⟨0, _⟩ => ⟨S65536x32, .f32⟩
  | .hbm, ⟨1, _⟩ => ⟨S65536x32, .f32⟩
  | .hbm, ⟨2, _⟩ => ⟨S65536x1000, .f32⟩
  | .hbm, ⟨3, _⟩ => ⟨S65536x1, .f32⟩
  | .hbm, ⟨4, _⟩ => ⟨S65536x4x128, .f32⟩
  | .hbm, ⟨5, _⟩ => ⟨S65536x4x128, .f32⟩
  | .hbm, ⟨6, _⟩ => ⟨S65536x2, .f32⟩
  | .hbm, ⟨7, _⟩ => ⟨S65536x2, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1000x128, .f32⟩
  | .hbm, ⟨13, _⟩ => ⟨S128, .f32⟩
  | .hbm, ⟨14, _⟩ => ⟨S2x64, .f32⟩
  | .hbm, ⟨15, _⟩ => ⟨S64, .f32⟩
  | .hbm, ⟨16, _⟩ => ⟨S512x256, .f32⟩
  | .hbm, ⟨17, _⟩ => ⟨S256, .f32⟩
  | .hbm, ⟨18, _⟩ => ⟨S384x128, .f32⟩
  | .hbm, ⟨19, _⟩ => ⟨S128, .f32⟩
  | .hbm, ⟨20, _⟩ => ⟨S128x64, .f32⟩
  | .hbm, ⟨21, _⟩ => ⟨S64, .f32⟩
  | .hbm, ⟨22, _⟩ => ⟨S64x32, .f32⟩
  | .hbm, ⟨23, _⟩ => ⟨S32, .f32⟩
  | .hbm, ⟨24, _⟩ => ⟨S32x1, .f32⟩
  | .hbm, ⟨25, _⟩ => ⟨S1, .f32⟩
  | .hbm, ⟨26, _⟩ => ⟨S64x32, .f32⟩
  | .hbm, ⟨27, _⟩ => ⟨S32, .f32⟩
  | .hbm, ⟨28, _⟩ => ⟨S32x1, .f32⟩
  | .hbm, ⟨29, _⟩ => ⟨S1, .f32⟩
  | .hbm, ⟨30, _⟩ => ⟨S65536x2, .f32⟩
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | .local _ .vmem, ⟨4, _⟩ => ⟨S1024x1000, .f32⟩
  | .local _ .vmem, ⟨5, _⟩ => ⟨S1024x1000, .f32⟩
  | .local _ .vmem, ⟨6, _⟩ => ⟨S1024x1, .f32⟩
  | .local _ .vmem, ⟨7, _⟩ => ⟨S1024x1, .f32⟩
  | .local _ .vmem, ⟨8, _⟩ => ⟨S1024x4x128, .f32⟩
  | .local _ .vmem, ⟨9, _⟩ => ⟨S1024x4x128, .f32⟩
  | .local _ .vmem, ⟨10, _⟩ => ⟨S1024x4x128, .f32⟩
  | .local _ .vmem, ⟨11, _⟩ => ⟨S1024x4x128, .f32⟩
  | .local _ .vmem, ⟨12, _⟩ => ⟨S1024x2, .f32⟩
  | .local _ .vmem, ⟨13, _⟩ => ⟨S1024x2, .f32⟩
  | .local _ .vmem, ⟨14, _⟩ => ⟨S1024x2, .f32⟩
  | .local _ .vmem, ⟨15, _⟩ => ⟨S1024x2, .f32⟩
  | .local _ .vmem, ⟨16, _⟩ => ⟨S64x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S1000x128, .f32⟩
  | .local _ .vmem, ⟨21, _⟩ => ⟨S128, .f32⟩
  | .local _ .vmem, ⟨22, _⟩ => ⟨S2x64, .f32⟩
  | .local _ .vmem, ⟨23, _⟩ => ⟨S64, .f32⟩
  | .local _ .vmem, ⟨24, _⟩ => ⟨S512x256, .f32⟩
  | .local _ .vmem, ⟨25, _⟩ => ⟨S256, .f32⟩
  | .local _ .vmem, ⟨26, _⟩ => ⟨S384x128, .f32⟩
  | .local _ .vmem, ⟨27, _⟩ => ⟨S128, .f32⟩
  | .local _ .vmem, ⟨28, _⟩ => ⟨S128x64, .f32⟩
  | .local _ .vmem, ⟨29, _⟩ => ⟨S64, .f32⟩
  | .local _ .vmem, ⟨30, _⟩ => ⟨S64x32, .f32⟩
  | .local _ .vmem, ⟨31, _⟩ => ⟨S32, .f32⟩
  | .local _ .vmem, ⟨32, _⟩ => ⟨S32x1, .f32⟩
  | .local _ .vmem, ⟨33, _⟩ => ⟨S1, .f32⟩
  | .local _ .vmem, ⟨34, _⟩ => ⟨S64x32, .f32⟩
  | .local _ .vmem, ⟨35, _⟩ => ⟨S32, .f32⟩
  | .local _ .vmem, ⟨36, _⟩ => ⟨S32x1, .f32⟩
  | .local _ .vmem, ⟨37, _⟩ => ⟨S1, .f32⟩
  | .local _ .vmem, ⟨38, _⟩ => ⟨S1024x2, .f32⟩
  | .local _ .vmem, ⟨39, _⟩ => ⟨S1024x2, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg28_0 : Ref sig .tc := ⟨.vmem, 36, rfl⟩
abbrev cc0_stg29_0 : Ref sig .tc := ⟨.vmem, 37, rfl⟩
abbrev cc0_stg30_0 : Ref sig .tc := ⟨.vmem, 38, rfl⟩
abbrev cc0_stg30_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem28_0 : DmaSem sig := 36
abbrev cc0_sem29_0 : DmaSem sig := 37
abbrev cc0_sem30_0 : DmaSem sig := 38
abbrev cc0_sem30_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1000x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S32x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S32 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S32x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 2 → Memref sig .tc .vmem S1024x2 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  inb_S1024x4x128_S1024x1x128_0_0_0 : ∀ a, (![0, 0, 0] : Fin 3 → Nat) a + S1024x1x128.size a ≤ S1024x4x128.size a
  h_S1024x1x128 : 0 < S1024x1x128.numel
  shapeCasts_S1024x1x128_S1024x128 : S1024x1x128.ShapeCasts S1024x128
  shapeCasts_S128_S1x128 : S128.ShapeCasts S1x128
  broadcasts_S1x128_S1024x128 : S1x128.Broadcasts S1024x128
  inb_S1024x4x128_S1024x1x128_0_1_0 : ∀ a, (![0, 1, 0] : Fin 3 → Nat) a + S1024x1x128.size a ≤ S1024x4x128.size a
  inb_S1024x4x128_S1024x1x128_0_2_0 : ∀ a, (![0, 2, 0] : Fin 3 → Nat) a + S1024x1x128.size a ≤ S1024x4x128.size a
  inb_S1024x4x128_S1024x1x128_0_3_0 : ∀ a, (![0, 3, 0] : Fin 3 → Nat) a + S1024x1x128.size a ≤ S1024x4x128.size a
  inb_S1024x32_S1024x32_0_0 : ∀ a, (![0, 0] : Fin 2 → Nat) a + S1024x32.size a ≤ S1024x32.size a
  h_S1024x32 : 0 < S1024x32.numel
  concatenates_S1024x32_S1024x32_S1024x64_d1 : Shape.Concatenates [S1024x32, S1024x32] S1024x64 1
  inb_S64x128_S64x128_0_0 : ∀ a, (![0, 0] : Fin 2 → Nat) a + S64x128.size a ≤ S64x128.size a
  h_S64x128 : 0 < S64x128.numel
  inb_S1024x1000_S1024x1000_0_0 : ∀ a, (![0, 0] : Fin 2 → Nat) a + S1024x1000.size a ≤ S1024x1000.size a
  h_S1024x1000 : 0 < S1024x1000.numel
  inb_S1000x128_S1000x128_0_0 : ∀ a, (![0, 0] : Fin 2 → Nat) a + S1000x128.size a ≤ S1000x128.size a
  h_S1000x128 : 0 < S1000x128.numel
  inb_S1024x1_S1024x1_0_0 : ∀ a, (![0, 0] : Fin 2 → Nat) a + S1024x1.size a ≤ S1024x1.size a
  h_S1024x1 : 0 < S1024x1.numel
  broadcasts_S1024x1_S1024x128 : S1024x1.Broadcasts S1024x128
  concatenates_S1024x128_S1024x128_S1024x128_S1024x128_S1024x512_d1 : Shape.Concatenates [S1024x128, S1024x128, S1024x128, S1024x128] S1024x512 1
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  inb_S1024x2_S1024x2_0_0 : ∀ a, (![0, 0] : Fin 2 → Nat) a + S1024x2.size a ≤ S1024x2.size a
  h_S1024x2 : 0 < S1024x2.numel
  shapeCasts_S64_S1x64 : S64.ShapeCasts S1x64
  broadcasts_S1x64_S1024x64 : S1x64.Broadcasts S1024x64
  concatenates_S1024x256_S1024x64_S1024x64_S1024x384_d1 : Shape.Concatenates [S1024x256, S1024x64, S1024x64] S1024x384 1
  inb_S384x128_S384x128_0_0 : ∀ a, (![0, 0] : Fin 2 → Nat) a + S384x128.size a ≤ S384x128.size a
  h_S384x128 : 0 < S384x128.numel
  inb_S128x64_S128x64_0_0 : ∀ a, (![0, 0] : Fin 2 → Nat) a + S128x64.size a ≤ S128x64.size a
  h_S128x64 : 0 < S128x64.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  concatenates_S1024x1_S1024x1_S1024x2_d1 : Shape.Concatenates [S1024x1, S1024x1] S1024x2 1
  dot_S1024x128_S128x128_S1024x128_1_0_0_1_n_n_wf : DotDims.WF S1024x128 S128x128 S1024x128 [1] [0] [0] [1] [] []
  dot_S1024x64_S64x128_S1024x128_1_0_0_1_n_n_wf : DotDims.WF S1024x64 S64x128 S1024x128 [1] [0] [0] [1] [] []
  dot_S1024x1000_S1000x128_S1024x128_1_0_0_1_n_n_wf : DotDims.WF S1024x1000 S1000x128 S1024x128 [1] [0] [0] [1] [] []
  dot_S1024x512_S512x256_S1024x256_1_0_0_1_n_n_wf : DotDims.WF S1024x512 S512x256 S1024x256 [1] [0] [0] [1] [] []
  dot_S1024x2_S2x64_S1024x64_1_0_0_1_n_n_wf : DotDims.WF S1024x2 S2x64 S1024x64 [1] [0] [0] [1] [] []
  dot_S1024x384_S384x128_S1024x128_1_0_0_1_n_n_wf : DotDims.WF S1024x384 S384x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S65536x32.size a
  hwx0_0 : ∀ i : grid0.Coords, EltTy.bits .f32 = 32 ∨ (Rect.block (s := S65536x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S65536x32.size a
  hwx0_1 : ∀ i : grid0.Coords, EltTy.bits .f32 = 32 ∨ (Rect.block (s := S65536x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S65536x1000.size a
  hwx0_2 : ∀ i : grid0.Coords, EltTy.bits .f32 = 32 ∨ (Rect.block (s := S65536x1000) S1024x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S65536x1.size a
  hwx0_3 : ∀ i : grid0.Coords, EltTy.bits .f32 = 32 ∨ (Rect.block (s := S65536x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x4x128.size a ≤ S65536x4x128.size a
  hwx0_4 : ∀ i : grid0.Coords, EltTy.bits .f32 = 32 ∨ (Rect.block (s := S65536x4x128) S1024x4x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x4x128.size a ≤ S65536x4x128.size a
  hwx0_5 : ∀ i : grid0.Coords, EltTy.bits .f32 = 32 ∨ (Rect.block (s := S65536x4x128) S1024x4x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2.size a ≤ S65536x2.size a
  hwx0_6 : ∀ i : grid0.Coords, EltTy.bits .f32 = 32 ∨ (Rect.block (s := S65536x2) S1024x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S65536x2.size a
  hwx0_7 : ∀ i : grid0.Coords, EltTy.bits .f32 = 32 ∨ (Rect.block (s := S65536x2) S1024x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1000x128.size a ≤ S1000x128.size a
  hwx0_12 : ∀ i : grid0.Coords, EltTy.bits .f32 = 32 ∨ (Rect.block (s := S1000x128) S1000x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x64.size a ≤ S2x64.size a
  hwx0_14 : ∀ i : grid0.Coords, EltTy.bits .f32 = 32 ∨ (Rect.block (s := S2x64) S2x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64.size a ≤ S64.size a
  hwx0_15 : ∀ i : grid0.Coords, EltTy.bits .f32 = 32 ∨ (Rect.block (s := S64) S64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S512x256.size a
  hwx0_16 : ∀ i : grid0.Coords, EltTy.bits .f32 = 32 ∨ (Rect.block (s := S512x256) S512x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S384x128.size a ≤ S384x128.size a
  hwx0_18 : ∀ i : grid0.Coords, EltTy.bits .f32 = 32 ∨ (Rect.block (s := S384x128) S384x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x64.size a ≤ S128x64.size a
  hwx0_20 : ∀ i : grid0.Coords, EltTy.bits .f32 = 32 ∨ (Rect.block (s := S128x64) S128x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64.size a ≤ S64.size a
  hwx0_21 : ∀ i : grid0.Coords, EltTy.bits .f32 = 32 ∨ (Rect.block (s := S64) S64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x32.size a ≤ S64x32.size a
  hwx0_22 : ∀ i : grid0.Coords, EltTy.bits .f32 = 32 ∨ (Rect.block (s := S64x32) S64x32.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S32.size a ≤ S32.size a
  hwx0_23 : ∀ i : grid0.Coords, EltTy.bits .f32 = 32 ∨ (Rect.block (s := S32) S32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S32x1.size a ≤ S32x1.size a
  hwx0_24 : ∀ i : grid0.Coords, EltTy.bits .f32 = 32 ∨ (Rect.block (s := S32x1) S32x1.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1.size a ≤ S1.size a
  hwx0_25 : ∀ i : grid0.Coords, EltTy.bits .f32 = 32 ∨ (Rect.block (s := S1) S1.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S64x32.size a ≤ S64x32.size a
  hwx0_26 : ∀ i : grid0.Coords, EltTy.bits .f32 = 32 ∨ (Rect.block (s := S64x32) S64x32.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S32.size a ≤ S32.size a
  hwx0_27 : ∀ i : grid0.Coords, EltTy.bits .f32 = 32 ∨ (Rect.block (s := S32) S32.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S32x1.size a ≤ S32x1.size a
  hwx0_28 : ∀ i : grid0.Coords, EltTy.bits .f32 = 32 ∨ (Rect.block (s := S32x1) S32x1.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S1.size a ≤ S1.size a
  hwx0_29 : ∀ i : grid0.Coords, EltTy.bits .f32 = 32 ∨ (Rect.block (s := S1) S1.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S1024x2.size a ≤ S65536x2.size a
  hwx0_30 : ∀ i : grid0.Coords, EltTy.bits .f32 = 32 ∨ (Rect.block (s := S65536x2) S1024x2.size (cc0_transform_30 i) (hinb0_30 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x1000_S1000x128_S1024x128_1_0_0_1_n_n : DotDims S1024x1000 S1000x128 S1024x128 where
  lhsContracting := [1]
  rhsContracting := [0]
  lhsNonContracting := [0]
  rhsNonContracting := [1]
  lhsBatch := []
  rhsBatch := []
  wf := dot_S1024x1000_S1000x128_S1024x128_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2_S2x64_S1024x64_1_0_0_1_n_n : DotDims S1024x2 S2x64 S1024x64 where
  lhsContracting := [1]
  rhsContracting := [0]
  lhsNonContracting := [0]
  rhsNonContracting := [1]
  lhsBatch := []
  rhsBatch := []
  wf := dot_S1024x2_S2x64_S1024x64_1_0_0_1_n_n_wf
def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x4x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x4x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x2.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x2.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1000x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S512x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S384x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S64x32.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S32x1.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S64x32.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S32.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S32x1.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg29) S1.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v0) S1024x2.size cc0_transform_30 reads0_30 true false 2 stage0_30 sem0_30
    hrank0 hreads0_30 hinb0_30 nbuf0_30 (Memref.isWhole_whole _) hwx0_30 hstage0_30

abbrev win0 : Fin 31 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | ⟨_ + 31, h⟩ => absurd h (Nat.not_lt.2 (Nat.le_add_left _ _))
abbrev spec0 : Fin 31 → Pipeline.WinSpec sig grid0.rank := fun w => (win0 w).toWinSpec

class Facts : Prop extends Facts₀ where

variable [Facts]
-- ==== ReferenceIdeal.lean ====
abbrev S65536x32 : Shape := ⟨2, ![65536, 32]⟩
abbrev S65536x1000 : Shape := ⟨2, ![65536, 1000]⟩
abbrev S65536x1 : Shape := ⟨2, ![65536, 1]⟩
abbrev S65536x4x128 : Shape := ⟨3, ![65536, 4, 128]⟩
abbrev S65536x2 : Shape := ⟨2, ![65536, 2]⟩
abbrev S64x128 : Shape := ⟨2, ![64, 128]⟩
abbrev S128 : Shape := ⟨1, ![128]⟩
abbrev S128x128 : Shape := ⟨2, ![128, 128]⟩
abbrev S1000x128 : Shape := ⟨2, ![1000, 128]⟩
abbrev S2x64 : Shape := ⟨2, ![2, 64]⟩
abbrev S64 : Shape := ⟨1, ![64]⟩
abbrev S512x256 : Shape := ⟨2, ![512, 256]⟩
abbrev S256 : Shape := ⟨1, ![256]⟩
abbrev S384x128 : Shape := ⟨2, ![384, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1x128 : Shape := ⟨3, ![1, 1, 128]⟩
abbrev S_ : Shape := ⟨0, ![]⟩
abbrev S65536x128 : Shape := ⟨2, ![65536, 128]⟩
abbrev S65536x64 : Shape := ⟨2, ![65536, 64]⟩
abbrev S1x128 : Shape := ⟨2, ![1, 128]⟩
abbrev S65536x512 : Shape := ⟨2, ![65536, 512]⟩
abbrev S65536x256 : Shape := ⟨2, ![65536, 256]⟩
abbrev S1x256 : Shape := ⟨2, ![1, 256]⟩
abbrev S1x64 : Shape := ⟨2, ![1, 64]⟩
abbrev S65536x384 : Shape := ⟨2, ![65536, 384]⟩
abbrev S1x32 : Shape := ⟨2, ![1, 32]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S65536x32, .f32⟩
  | 1 => ⟨S65536x32, .f32⟩
  | 2 => ⟨S65536x1000, .f32⟩
  | 3 => ⟨S65536x1, .f32⟩
  | 4 => ⟨S65536x4x128, .f32⟩
  | 5 => ⟨S65536x4x128, .f32⟩
  | 6 => ⟨S65536x2, .f32⟩
  | 7 => ⟨S65536x2, .f32⟩
  | 8 => ⟨S64x128, .f32⟩
  | 9 => ⟨S128, .f32⟩
  | 10 => ⟨S128x128, .f32⟩
  | 11 => ⟨S128, .f32⟩
  | 12 => ⟨S1000x128, .f32⟩
  | 13 => ⟨S128, .f32⟩
  | 14 => ⟨S2x64, .f32⟩
  | 15 => ⟨S64, .f32⟩
  | 16 => ⟨S512x256, .f32⟩
  | 17 => ⟨S256, .f32⟩
  | 18 => ⟨S384x128, .f32⟩
  | 19 => ⟨S128, .f32⟩
  | 20 => ⟨S128x64, .f32⟩
  | 21 => ⟨S64, .f32⟩
  | 22 => ⟨S64x32, .f32⟩
  | 23 => ⟨S32, .f32⟩
  | 24 => ⟨S32x1, .f32⟩
  | 25 => ⟨S1, .f32⟩
  | 26 => ⟨S64x32, .f32⟩
  | 27 => ⟨S32, .f32⟩
  | 28 => ⟨S32x1, .f32⟩
  | 29 => ⟨S1, .f32⟩
  | 30 => ⟨S65536x4x128, .f32⟩
  | 31 => ⟨S1x1x128, .f32⟩
  | 32 => ⟨S65536x4x128, .f32⟩
  | 33 => ⟨S65536x4x128, .f32⟩
  | 34 => ⟨S_, .f32⟩
  | 35 => ⟨S65536x128, .f32⟩
  | 36 => ⟨S65536x4x128, .f32⟩
  | 37 => ⟨S1x1x128, .f32⟩
  | 38 => ⟨S65536x4x128, .f32⟩
  | 39 => ⟨S65536x4x128, .f32⟩
  | 40 => ⟨S_, .f32⟩
  | 41 => ⟨S65536x128, .f32⟩
  | 42 => ⟨S65536x64, .f32⟩
  | 43 => ⟨S65536x128, .f32⟩
  | 44 => ⟨S1x128, .f32⟩
  | 45 => ⟨S65536x128, .f32⟩
  | 46 => ⟨S65536x128, .f32⟩
  | 47 => ⟨S65536x128, .f32⟩
  | 48 => ⟨S1x128, .f32⟩
  | 49 => ⟨S65536x128, .f32⟩
  | 50 => ⟨S65536x128, .f32⟩
  | 51 => ⟨S65536x128, .f32⟩
  | 52 => ⟨S65536x128, .f32⟩
  | 53 => ⟨S65536x512, .f32⟩
  | 54 => ⟨S65536x256, .f32⟩
  | 55 => ⟨S1x256, .f32⟩
  | 56 => ⟨S65536x256, .f32⟩
  | 57 => ⟨S65536x256, .f32⟩
  | 58 => ⟨S_, .f32⟩
  | 59 => ⟨S65536x256, .f32⟩
  | 60 => ⟨S65536x256, .f32⟩
  | 61 => ⟨S65536x64, .f32⟩
  | 62 => ⟨S1x64, .f32⟩
  | 63 => ⟨S65536x64, .f32⟩
  | 64 => ⟨S65536x64, .f32⟩
  | 65 => ⟨S_, .f32⟩
  | 66 => ⟨S65536x64, .f32⟩
  | 67 => ⟨S65536x64, .f32⟩
  | 68 => ⟨S65536x64, .f32⟩
  | 69 => ⟨S1x64, .f32⟩
  | 70 => ⟨S65536x64, .f32⟩
  | 71 => ⟨S65536x64, .f32⟩
  | 72 => ⟨S_, .f32⟩
  | 73 => ⟨S65536x64, .f32⟩
  | 74 => ⟨S65536x64, .f32⟩
  | 75 => ⟨S65536x384, .f32⟩
  | 76 => ⟨S65536x128, .f32⟩
  | 77 => ⟨S1x128, .f32⟩
  | 78 => ⟨S65536x128, .f32⟩
  | 79 => ⟨S65536x128, .f32⟩
  | 80 => ⟨S_, .f32⟩
  | 81 => ⟨S65536x128, .f32⟩
  | 82 => ⟨S65536x128, .f32⟩
  | 83 => ⟨S65536x64, .f32⟩
  | 84 => ⟨S1x64, .f32⟩
  | 85 => ⟨S65536x64, .f32⟩
  | 86 => ⟨S65536x64, .f32⟩
  | 87 => ⟨S_, .f32⟩
  | 88 => ⟨S65536x64, .f32⟩
  | 89 => ⟨S65536x64, .f32⟩
  | 90 => ⟨S65536x32, .f32⟩
  | 91 => ⟨S1x32, .f32⟩
  | 92 => ⟨S65536x32, .f32⟩
  | 93 => ⟨S65536x32, .f32⟩
  | 94 => ⟨S_, .f32⟩
  | 95 => ⟨S65536x32, .f32⟩
  | 96 => ⟨S65536x32, .f32⟩
  | 97 => ⟨S65536x1, .f32⟩
  | 98 => ⟨S1x1, .f32⟩
  | 99 => ⟨S65536x1, .f32⟩
  | 100 => ⟨S65536x1, .f32⟩
  | 101 => ⟨S65536x1, .f32⟩
  | 102 => ⟨S65536x1, .f32⟩
  | 103 => ⟨S_, .f32⟩
  | 104 => ⟨S65536x1, .f32⟩
  | 105 => ⟨S65536x1, .f32⟩
  | 106 => ⟨S_, .f32⟩
  | 107 => ⟨S65536x1, .f32⟩
  | 108 => ⟨S65536x1, .f32⟩
  | 109 => ⟨S65536x32, .f32⟩
  | 110 => ⟨S1x32, .f32⟩
  | 111 => ⟨S65536x32, .f32⟩
  | 112 => ⟨S65536x32, .f32⟩
  | 113 => ⟨S_, .f32⟩
  | 114 => ⟨S65536x32, .f32⟩
  | 115 => ⟨S65536x32, .f32⟩
  | 116 => ⟨S65536x1, .f32⟩
  | 117 => ⟨S1x1, .f32⟩
  | 118 => ⟨S65536x1, .f32⟩
  | 119 => ⟨S65536x1, .f32⟩
  | 120 => ⟨S65536x1, .f32⟩
  | 121 => ⟨S65536x1, .f32⟩
  | 122 => ⟨S_, .f32⟩
  | 123 => ⟨S65536x1, .f32⟩
  | 124 => ⟨S65536x1, .f32⟩
  | 125 => ⟨S_, .f32⟩
  | 126 => ⟨S65536x1, .f32⟩
  | 127 => ⟨S65536x1, .f32⟩
  | _ => ⟨S65536x32, .f32⟩

abbrev hbmTy0_1 (i : Nat) : BufTy := match i % 128 with
  | 0 => ⟨S65536x2, .f32⟩
  | _ => ⟨S65536x32, .f32⟩

abbrev hbmTy (i : Nat) : BufTy := match i / 128 with
  | 0 => hbmTy0_0 i
  | 1 => hbmTy0_1 i
  | _ => ⟨S65536x32, .f32⟩

abbrev bufTy : (tb : Table) → Fin (tcTables nBuf tb) → BufTy
  | .hbm, ⟨i, _⟩ => hbmTy i
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call0_cst : Ref sig .tc := ⟨.hbm, 58, rfl⟩
abbrev main_call0_v0 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_call1_cst : Ref sig .tc := ⟨.hbm, 65, rfl⟩
abbrev main_call1_v0 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call2_cst : Ref sig .tc := ⟨.hbm, 72, rfl⟩
abbrev main_call2_v0 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call3_cst : Ref sig .tc := ⟨.hbm, 80, rfl⟩
abbrev main_call3_v0 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call4_cst : Ref sig .tc := ⟨.hbm, 87, rfl⟩
abbrev main_call4_v0 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call5_cst : Ref sig .tc := ⟨.hbm, 94, rfl⟩
abbrev main_call5_v0 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_1 : Ref sig .tc := ⟨.hbm, 103, rfl⟩
abbrev main_v59 : Ref sig .tc := ⟨.hbm, 104, rfl⟩
abbrev main_v60 : Ref sig .tc := ⟨.hbm, 105, rfl⟩
abbrev main_cst_2 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call6_cst : Ref sig .tc := ⟨.hbm, 113, rfl⟩
abbrev main_call6_v0 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_3 : Ref sig .tc := ⟨.hbm, 122, rfl⟩
abbrev main_v74 : Ref sig .tc := ⟨.hbm, 123, rfl⟩
abbrev main_v75 : Ref sig .tc := ⟨.hbm, 124, rfl⟩
abbrev main_cst_4 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S65536x4x128_0_1_2 : S1x1x128.BroadcastsInDim S65536x4x128 (![0, 1, 2] : Fin 3 → Fin S65536x4x128.rank)
  reducesTo_S65536x4x128_S65536x128_d1 : S65536x4x128.ReducesTo [1] S65536x128
  h_S_ : 0 < S_.numel
  concatenates_S65536x32_S65536x32_S65536x64_d1 : Shape.Concatenates [S65536x32, S65536x32] S65536x64 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S65536x1_S65536x128_0_1 : S65536x1.BroadcastsInDim S65536x128 (![0, 1] : Fin 2 → Fin S65536x128.rank)
  concatenates_S65536x128_S65536x128_S65536x128_S65536x128_S65536x512_d1 : Shape.Concatenates [S65536x128, S65536x128, S65536x128, S65536x128] S65536x512 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  concatenates_S65536x256_S65536x64_S65536x64_S65536x384_d1 : Shape.Concatenates [S65536x256, S65536x64, S65536x64] S65536x384 1
  bcast_S_S65536x128 : S_.BroadcastsInDim S65536x128 (![] : Fin 0 → Fin S65536x128.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  concatenates_S65536x1_S65536x1_S65536x2_d1 : Shape.Concatenates [S65536x1, S65536x1] S65536x2 1
  dot_S65536x4x128_S128x128_S65536x4x128_2_0_01_1_n_n_wf : DotDims.WF S65536x4x128 S128x128 S65536x4x128 [2] [0] [0, 1] [1] [] []
  dot_S65536x64_S64x128_S65536x128_1_0_0_1_n_n_wf : DotDims.WF S65536x64 S64x128 S65536x128 [1] [0] [0] [1] [] []
  dot_S65536x1000_S1000x128_S65536x128_1_0_0_1_n_n_wf : DotDims.WF S65536x1000 S1000x128 S65536x128 [1] [0] [0] [1] [] []
  dot_S65536x512_S512x256_S65536x256_1_0_0_1_n_n_wf : DotDims.WF S65536x512 S512x256 S65536x256 [1] [0] [0] [1] [] []
  dot_S65536x2_S2x64_S65536x64_1_0_0_1_n_n_wf : DotDims.WF S65536x2 S2x64 S65536x64 [1] [0] [0] [1] [] []
  dot_S65536x384_S384x128_S65536x128_1_0_0_1_n_n_wf : DotDims.WF S65536x384 S384x128 S65536x128 [1] [0] [0] [1] [] []
  dot_S65536x128_S128x64_S65536x64_1_0_0_1_n_n_wf : DotDims.WF S65536x128 S128x64 S65536x64 [1] [0] [0] [1] [] []
  dot_S65536x64_S64x32_S65536x32_1_0_0_1_n_n_wf : DotDims.WF S65536x64 S64x32 S65536x32 [1] [0] [0] [1] [] []
  dot_S65536x32_S32x1_S65536x1_1_0_0_1_n_n_wf : DotDims.WF S65536x32 S32x1 S65536x1 [1] [0] [0] [1] [] []

variable [Facts₀]

def dot_S65536x4x128_S128x128_S65536x4x128_2_0_01_1_n_n : DotDims S65536x4x128 S128x128 S65536x4x128 where
  lhsContracting := [2]
  rhsContracting := [0]
  lhsNonContracting := [0, 1]
  rhsNonContracting := [1]
  lhsBatch := []
  rhsBatch := []
  wf := dot_S65536x4x128_S128x128_S65536x4x128_2_0_01_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x1000_S1000x128_S65536x128_1_0_0_1_n_n : DotDims S65536x1000 S1000x128 S65536x128 where
  lhsContracting := [1]
  rhsContracting := [0]
  lhsNonContracting := [0]
  rhsNonContracting := [1]
  lhsBatch := []
  rhsBatch := []
  wf := dot_S65536x1000_S1000x128_S65536x128_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x2_S2x64_S65536x64_1_0_0_1_n_n : DotDims S65536x2 S2x64 S65536x64 where
  lhsContracting := [1]
  rhsContracting := [0]
  lhsNonContracting := [0]
  rhsNonContracting := [1]
  lhsBatch := []
  rhsBatch := []
  wf := dot_S65536x2_S2x64_S65536x64_1_0_0_1_n_n_wf
def dot_S65536x384_S384x128_S65536x128_1_0_0_1_n_n : DotDims S65536x384 S384x128 S65536x128 where
  lhsContracting := [1]
  rhsContracting := [0]
  lhsNonContracting := [0]
  rhsNonContracting := [1]
  lhsBatch := []
  rhsBatch := []
  wf := dot_S65536x384_S384x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.LibHostRun.lean ====
/-
  Two facts for reading a host program's run whose operations include concatenations.

  A concatenation's operands sit in a list under an evidence term that depends on the list, so a simplifier will
  not rewrite them in place: `concatenate_list_congr` is the congruence that lets it (the evidence rides along).
  And an operation over a literal family of THREE references (a concatenation of three operands) leaves, read at
  its result, its function of the three operands' contents each at its own reference: `nary3_result'`, in the
  shape of the library's lemma for four references.  Such a family of contents, built entry by entry, is read back at
  a literal position by `cons_at0` … `cons_at3`.
-/
import Idealize.ShloMosaic.Lib.StableHlo.Run

noncomputable section

namespace HostRun

open Idealize.ShloMosaic Idealize.ShloMosaic.StableHlo

variable {nD : Nat} {τ : Topo} {sig : RefSig} {Val : EltTy → Type}

/-- A concatenation's operands may be rewritten in place: equal lists give equal concatenations. -/
theorem concatenate_list_congr {α : Type} (t : Shape) (a : Fin t.rank) (xs xs' : List ((s : Shape) × (s.Idx → α)))
    (h : Shape.Concatenates (xs.map (·.1)) t a) (e : xs = xs') :
    concatenate t a xs h = concatenate t a xs' (e ▸ h) := by subst e; rfl

/-- An operation over a literal family of three references, read at its result: its function of the three operands'
    contents, each at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- A family built entry by entry, read at its first four positions. -/
theorem cons_at0 {n : Nat} {α : Fin (n + 1) → Type} (a : α 0) (f : (i : Fin n) → α i.succ) : Fin.cons (α := α) a f 0 = a := rfl
theorem cons_at1 {n : Nat} {α : Fin (n + 2) → Type} (a : α 0) (f : (i : Fin (n + 1)) → α i.succ) :
    Fin.cons (α := α) a f 1 = f 0 := rfl
theorem cons_at2 {n : Nat} {α : Fin (n + 3) → Type} (a : α 0) (f : (i : Fin (n + 2)) → α i.succ) :
    Fin.cons (α := α) a f 2 = f 1 := rfl
theorem cons_at3 {n : Nat} {α : Fin (n + 4) → Type} (a : α 0) (f : (i : Fin (n + 3)) → α i.succ) :
    Fin.cons (α := α) a f 3 = f 2 := rfl

end HostRun

end
-- ==== Proof.KernelBlocks.lean ====
/-
  The blocks the pipeline hands the body, as parts of the argument arrays.

  The grid has 64 points.  At point `t` each of the eight row-major inputs is staged as its rows
  `1024 t … 1024 t + 1023` (all columns, all four predicates), the output block is the same rows of the result,
  and every weight array is staged whole.  The index maps are decided once over the 64 points; each window's
  block is then read off its array coordinate by coordinate: block index times block size plus the
  coordinate inside the block.
-/
import proofs.«104223_j84061099917535_1_alg».proof.Proof.KernelIdealValueP
import Idealize.ShloMosaic.Lib.ValueIdx

set_option maxRecDepth 16384

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The row-major windows, and the output's, move one block of 1024 rows per grid point and stay at the first block of
    every other axis. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_30.index t (0 : Fin 2) = t.val ∧ win0_30.index t (1 : Fin 2) = 0) :=
  (by decide +kernel : ∀ t : Fin grid0.N, _)

/-- The weight windows stay at their one block. -/
theorem idx_consts : ∀ t : Fin cfg0.N,
    (win0_8.index t (0 : Fin 2) = 0 ∧ win0_8.index t (1 : Fin 2) = 0)
    ∧ (win0_10.index t (0 : Fin 2) = 0 ∧ win0_10.index t (1 : Fin 2) = 0)
    ∧ (win0_12.index t (0 : Fin 2) = 0 ∧ win0_12.index t (1 : Fin 2) = 0)
    ∧ (win0_14.index t (0 : Fin 2) = 0 ∧ win0_14.index t (1 : Fin 2) = 0)
    ∧ (win0_16.index t (0 : Fin 2) = 0 ∧ win0_16.index t (1 : Fin 2) = 0)
    ∧ (win0_18.index t (0 : Fin 2) = 0 ∧ win0_18.index t (1 : Fin 2) = 0)
    ∧ (win0_20.index t (0 : Fin 2) = 0 ∧ win0_20.index t (1 : Fin 2) = 0)
    ∧ (win0_22.index t (0 : Fin 2) = 0 ∧ win0_22.index t (1 : Fin 2) = 0)
    ∧ (win0_24.index t (0 : Fin 2) = 0 ∧ win0_24.index t (1 : Fin 2) = 0)
    ∧ (win0_26.index t (0 : Fin 2) = 0 ∧ win0_26.index t (1 : Fin 2) = 0)
    ∧ (win0_28.index t (0 : Fin 2) = 0 ∧ win0_28.index t (1 : Fin 2) = 0)
    ∧ (win0_9.index t (0 : Fin 1) = 0)
    ∧ (win0_11.index t (0 : Fin 1) = 0)
    ∧ (win0_13.index t (0 : Fin 1) = 0)
    ∧ (win0_15.index t (0 : Fin 1) = 0)
    ∧ (win0_17.index t (0 : Fin 1) = 0)
    ∧ (win0_19.index t (0 : Fin 1) = 0)
    ∧ (win0_21.index t (0 : Fin 1) = 0)
    ∧ (win0_23.index t (0 : Fin 1) = 0)
    ∧ (win0_25.index t (0 : Fin 1) = 0)
    ∧ (win0_27.index t (0 : Fin 1) = 0)
    ∧ (win0_29.index t (0 : Fin 1) = 0) :=
  (by decide +kernel : ∀ t : Fin grid0.N, _)

/-- A row of a block at point `t` is a row of the array. -/
theorem row_lt (t : Fin cfg0.N) (p : Fin 1024) : t.val * 1024 + p.val < 65536 := by
  have ht : t.val < 64 := lt_of_lt_of_eq t.isLt N_0
  have hp := p.isLt
  omega

/-- Row `p` of a block at point `t`, as a row of the array. -/
abbrev arow (t : Fin cfg0.N) (p : Fin 1024) : Fin 65536 := ⟨t.val * 1024 + p.val, row_lt t p⟩

theorem blk0 (c : Dev nD) (t : Fin cfg0.N) (p : Fin 1024) (k : Fin 32) :
    iblk m c 0 t (ix2 p k) = m ((c : Thread nD τ).loc main_arg0) (ix2 (arow t p) k) := by
  show V m c main_arg0 (((cfg0.win 0).blk t).view.emb (ix2 p k)) = _
  refine congrArg _ (funext fun a => Fin.ext ?_)
  obtain ⟨e0, e1⟩ := (idx_rows t).1
  match a with
  | ⟨0, _⟩ => show win0_0.index t (0 : Fin 2) * 1024 + 1 * p.val = t.val * 1024 + p.val; rw [e0]; omega
  | ⟨1, _⟩ => show win0_0.index t (1 : Fin 2) * 32 + 1 * k.val = k.val; rw [e1]; omega

theorem blk1 (c : Dev nD) (t : Fin cfg0.N) (p : Fin 1024) (k : Fin 32) :
    iblk m c 1 t (ix2 p k) = m ((c : Thread nD τ).loc main_arg1) (ix2 (arow t p) k) := by
  show V m c main_arg1 (((cfg0.win 1).blk t).view.emb (ix2 p k)) = _
  refine congrArg _ (funext fun a => Fin.ext ?_)
  obtain ⟨e0, e1⟩ := (idx_rows t).2.1
  match a with
  | ⟨0, _⟩ => show win0_1.index t (0 : Fin 2) * 1024 + 1 * p.val = t.val * 1024 + p.val; rw [e0]; omega
  | ⟨1, _⟩ => show win0_1.index t (1 : Fin 2) * 32 + 1 * k.val = k.val; rw [e1]; omega

theorem blk2 (c : Dev nD) (t : Fin cfg0.N) (p : Fin 1024) (k : Fin 1000) :
    iblk m c 2 t (ix2 p k) = m ((c : Thread nD τ).loc main_arg2) (ix2 (arow t p) k) := by
  show V m c main_arg2 (((cfg0.win 2).blk t).view.emb (ix2 p k)) = _
  refine congrArg _ (funext fun a => Fin.ext ?_)
  obtain ⟨e0, e1⟩ := (idx_rows t).2.2.1
  match a with
  | ⟨0, _⟩ => show win0_2.index t (0 : Fin 2) * 1024 + 1 * p.val = t.val * 1024 + p.val; rw [e0]; omega
  | ⟨1, _⟩ => show win0_2.index t (1 : Fin 2) * 1000 + 1 * k.val = k.val; rw [e1]; omega

theorem blk3 (c : Dev nD) (t : Fin cfg0.N) (p : Fin 1024) (k : Fin 1) :
    iblk m c 3 t (ix2 p k) = m ((c : Thread nD τ).loc main_arg3) (ix2 (arow t p) k) := by
  show V m c main_arg3 (((cfg0.win 3).blk t).view.emb (ix2 p k)) = _
  refine congrArg _ (funext fun a => Fin.ext ?_)
  obtain ⟨e0, e1⟩ := (idx_rows t).2.2.2.1
  match a with
  | ⟨0, _⟩ => show win0_3.index t (0 : Fin 2) * 1024 + 1 * p.val = t.val * 1024 + p.val; rw [e0]; omega
  | ⟨1, _⟩ => show win0_3.index t (1 : Fin 2) * 1 + 1 * k.val = k.val; rw [e1]; omega

theorem blk6 (c : Dev nD) (t : Fin cfg0.N) (p : Fin 1024) (k : Fin 2) :
    iblk m c 6 t (ix2 p k) = m ((c : Thread nD τ).loc main_arg6) (ix2 (arow t p) k) := by
  show V m c main_arg6 (((cfg0.win 6).blk t).view.emb (ix2 p k)) = _
  refine congrArg _ (funext fun a => Fin.ext ?_)
  obtain ⟨e0, e1⟩ := (idx_rows t).2.2.2.2.1
  match a with
  | ⟨0, _⟩ => show win0_6.index t (0 : Fin 2) * 1024 + 1 * p.val = t.val * 1024 + p.val; rw [e0]; omega
  | ⟨1, _⟩ => show win0_6.index t (1 : Fin 2) * 2 + 1 * k.val = k.val; rw [e1]; omega

theorem blk7 (c : Dev nD) (t : Fin cfg0.N) (p : Fin 1024) (k : Fin 2) :
    iblk m c 7 t (ix2 p k) = m ((c : Thread nD τ).loc main_arg7) (ix2 (arow t p) k) := by
  show V m c main_arg7 (((cfg0.win 7).blk t).view.emb (ix2 p k)) = _
  refine congrArg _ (funext fun a => Fin.ext ?_)
  obtain ⟨e0, e1⟩ := (idx_rows t).2.2.2.2.2.1
  match a with
  | ⟨0, _⟩ => show win0_7.index t (0 : Fin 2) * 1024 + 1 * p.val = t.val * 1024 + p.val; rw [e0]; omega
  | ⟨1, _⟩ => show win0_7.index t (1 : Fin 2) * 2 + 1 * k.val = k.val; rw [e1]; omega

theorem blk4 (c : Dev nD) (t : Fin cfg0.N) (p : Fin 1024) (s : Fin 4) (k : Fin 128) :
    iblk m c 4 t (ix3 p s k) = m ((c : Thread nD τ).loc main_arg4) (ix3 (arow t p) s k) := by
  show V m c main_arg4 (((cfg0.win 4).blk t).view.emb (ix3 p s k)) = _
  refine congrArg _ (funext fun a => Fin.ext ?_)
  obtain ⟨e0, e1, e2⟩ := (idx_rows t).2.2.2.2.2.2.1
  match a with
  | ⟨0, _⟩ => show win0_4.index t (0 : Fin 3) * 1024 + 1 * p.val = t.val * 1024 + p.val; rw [e0]; omega
  | ⟨1, _⟩ => show win0_4.index t (1 : Fin 3) * 4 + 1 * s.val = s.val; rw [e1]; omega
  | ⟨2, _⟩ => show win0_4.index t (2 : Fin 3) * 128 + 1 * k.val = k.val; rw [e2]; omega

theorem blk5 (c : Dev nD) (t : Fin cfg0.N) (p : Fin 1024) (s : Fin 4) (k : Fin 128) :
    iblk m c 5 t (ix3 p s k) = m ((c : Thread nD τ).loc main_arg5) (ix3 (arow t p) s k) := by
  show V m c main_arg5 (((cfg0.win 5).blk t).view.emb (ix3 p s k)) = _
  refine congrArg _ (funext fun a => Fin.ext ?_)
  obtain ⟨e0, e1, e2⟩ := (idx_rows t).2.2.2.2.2.2.2.1
  match a with
  | ⟨0, _⟩ => show win0_5.index t (0 : Fin 3) * 1024 + 1 * p.val = t.val * 1024 + p.val; rw [e0]; omega
  | ⟨1, _⟩ => show win0_5.index t (1 : Fin 3) * 4 + 1 * s.val = s.val; rw [e1]; omega
  | ⟨2, _⟩ => show win0_5.index t (2 : Fin 3) * 128 + 1 * k.val = k.val; rw [e2]; omega

/-- An entry of the output block at point `t` sits in the result at the same column of row `1024 t + p`. -/
theorem out_emb (t : Fin cfg0.N) (p : Fin 1024) (q : Fin 2) :
    ((cfg0.win 30).blk t).view.emb (ix2 p q) = ix2 (arow t p) q := by
  refine funext fun a => Fin.ext ?_
  obtain ⟨e0, e1⟩ := (idx_rows t).2.2.2.2.2.2.2.2
  match a with
  | ⟨0, _⟩ => show win0_30.index t (0 : Fin 2) * 1024 + 1 * p.val = t.val * 1024 + p.val; rw [e0]; omega
  | ⟨1, _⟩ => show win0_30.index t (1 : Fin 2) * 2 + 1 * q.val = q.val; rw [e1]; omega

theorem blk8 (c : Dev nD) (t : Fin cfg0.N) : iblk m c 8 t = m ((c : Thread nD τ).loc main_arg8) := by
  funext y
  show V m c main_arg8 (((cfg0.win 8).blk t).view.emb y) = _
  refine congrArg _ (funext fun a => Fin.ext ?_)
  obtain ⟨e0, e1⟩ := (idx_consts t).1
  match a with
  | ⟨0, _⟩ => show win0_8.index t (0 : Fin 2) * 64 + 1 * (y 0).val = (y 0).val; rw [e0]; omega
  | ⟨1, _⟩ => show win0_8.index t (1 : Fin 2) * 128 + 1 * (y 1).val = (y 1).val; rw [e1]; omega

theorem blk10 (c : Dev nD) (t : Fin cfg0.N) : iblk m c 10 t = m ((c : Thread nD τ).loc main_arg10) := by
  funext y
  show V m c main_arg10 (((cfg0.win 10).blk t).view.emb y) = _
  refine congrArg _ (funext fun a => Fin.ext ?_)
  obtain ⟨e0, e1⟩ := (idx_consts t).2.1
  match a with
  | ⟨0, _⟩ => show win0_10.index t (0 : Fin 2) * 128 + 1 * (y 0).val = (y 0).val; rw [e0]; omega
  | ⟨1, _⟩ => show win0_10.index t (1 : Fin 2) * 128 + 1 * (y 1).val = (y 1).val; rw [e1]; omega

theorem blk12 (c : Dev nD) (t : Fin cfg0.N) : iblk m c 12 t = m ((c : Thread nD τ).loc main_arg12) := by
  funext y
  show V m c main_arg12 (((cfg0.win 12).blk t).view.emb y) = _
  refine congrArg _ (funext fun a => Fin.ext ?_)
  obtain ⟨e0, e1⟩ := (idx_consts t).2.2.1
  match a with
  | ⟨0, _⟩ => show win0_12.index t (0 : Fin 2) * 1000 + 1 * (y 0).val = (y 0).val; rw [e0]; omega
  | ⟨1, _⟩ => show win0_12.index t (1 : Fin 2) * 128 + 1 * (y 1).val = (y 1).val; rw [e1]; omega

theorem blk14 (c : Dev nD) (t : Fin cfg0.N) : iblk m c 14 t = m ((c : Thread nD τ).loc main_arg14) := by
  funext y
  show V m c main_arg14 (((cfg0.win 14).blk t).view.emb y) = _
  refine congrArg _ (funext fun a => Fin.ext ?_)
  obtain ⟨e0, e1⟩ := (idx_consts t).2.2.2.1
  match a with
  | ⟨0, _⟩ => show win0_14.index t (0 : Fin 2) * 2 + 1 * (y 0).val = (y 0).val; rw [e0]; omega
  | ⟨1, _⟩ => show win0_14.index t (1 : Fin 2) * 64 + 1 * (y 1).val = (y 1).val; rw [e1]; omega

theorem blk16 (c : Dev nD) (t : Fin cfg0.N) : iblk m c 16 t = m ((c : Thread nD τ).loc main_arg16) := by
  funext y
  show V m c main_arg16 (((cfg0.win 16).blk t).view.emb y) = _
  refine congrArg _ (funext fun a => Fin.ext ?_)
  obtain ⟨e0, e1⟩ := (idx_consts t).2.2.2.2.1
  match a with
  | ⟨0, _⟩ => show win0_16.index t (0 : Fin 2) * 512 + 1 * (y 0).val = (y 0).val; rw [e0]; omega
  | ⟨1, _⟩ => show win0_16.index t (1 : Fin 2) * 256 + 1 * (y 1).val = (y 1).val; rw [e1]; omega

theorem blk18 (c : Dev nD) (t : Fin cfg0.N) : iblk m c 18 t = m ((c : Thread nD τ).loc main_arg18) := by
  funext y
  show V m c main_arg18 (((cfg0.win 18).blk t).view.emb y) = _
  refine congrArg _ (funext fun a => Fin.ext ?_)
  obtain ⟨e0, e1⟩ := (idx_consts t).2.2.2.2.2.1
  match a with
  | ⟨0, _⟩ => show win0_18.index t (0 : Fin 2) * 384 + 1 * (y 0).val = (y 0).val; rw [e0]; omega
  | ⟨1, _⟩ => show win0_18.index t (1 : Fin 2) * 128 + 1 * (y 1).val = (y 1).val; rw [e1]; omega

theorem blk20 (c : Dev nD) (t : Fin cfg0.N) : iblk m c 20 t = m ((c : Thread nD τ).loc main_arg20) := by
  funext y
  show V m c main_arg20 (((cfg0.win 20).blk t).view.emb y) = _
  refine congrArg _ (funext fun a => Fin.ext ?_)
  obtain ⟨e0, e1⟩ := (idx_consts t).2.2.2.2.2.2.1
  match a with
  | ⟨0, _⟩ => show win0_20.index t (0 : Fin 2) * 128 + 1 * (y 0).val = (y 0).val; rw [e0]; omega
  | ⟨1, _⟩ => show win0_20.index t (1 : Fin 2) * 64 + 1 * (y 1).val = (y 1).val; rw [e1]; omega

theorem blk22 (c : Dev nD) (t : Fin cfg0.N) : iblk m c 22 t = m ((c : Thread nD τ).loc main_arg22) := by
  funext y
  show V m c main_arg22 (((cfg0.win 22).blk t).view.emb y) = _
  refine congrArg _ (funext fun a => Fin.ext ?_)
  obtain ⟨e0, e1⟩ := (idx_consts t).2.2.2.2.2.2.2.1
  match a with
  | ⟨0, _⟩ => show win0_22.index t (0 : Fin 2) * 64 + 1 * (y 0).val = (y 0).val; rw [e0]; omega
  | ⟨1, _⟩ => show win0_22.index t (1 : Fin 2) * 32 + 1 * (y 1).val = (y 1).val; rw [e1]; omega

theorem blk24 (c : Dev nD) (t : Fin cfg0.N) : iblk m c 24 t = m ((c : Thread nD τ).loc main_arg24) := by
  funext y
  show V m c main_arg24 (((cfg0.win 24).blk t).view.emb y) = _
  refine congrArg _ (funext fun a => Fin.ext ?_)
  obtain ⟨e0, e1⟩ := (idx_consts t).2.2.2.2.2.2.2.2.1
  match a with
  | ⟨0, _⟩ => show win0_24.index t (0 : Fin 2) * 32 + 1 * (y 0).val = (y 0).val; rw [e0]; omega
  | ⟨1, _⟩ => show win0_24.index t (1 : Fin 2) * 1 + 1 * (y 1).val = (y 1).val; rw [e1]; omega

theorem blk26 (c : Dev nD) (t : Fin cfg0.N) : iblk m c 26 t = m ((c : Thread nD τ).loc main_arg26) := by
  funext y
  show V m c main_arg26 (((cfg0.win 26).blk t).view.emb y) = _
  refine congrArg _ (funext fun a => Fin.ext ?_)
  obtain ⟨e0, e1⟩ := (idx_consts t).2.2.2.2.2.2.2.2.2.1
  match a with
  | ⟨0, _⟩ => show win0_26.index t (0 : Fin 2) * 64 + 1 * (y 0).val = (y 0).val; rw [e0]; omega
  | ⟨1, _⟩ => show win0_26.index t (1 : Fin 2) * 32 + 1 * (y 1).val = (y 1).val; rw [e1]; omega

theorem blk28 (c : Dev nD) (t : Fin cfg0.N) : iblk m c 28 t = m ((c : Thread nD τ).loc main_arg28) := by
  funext y
  show V m c main_arg28 (((cfg0.win 28).blk t).view.emb y) = _
  refine congrArg _ (funext fun a => Fin.ext ?_)
  obtain ⟨e0, e1⟩ := (idx_consts t).2.2.2.2.2.2.2.2.2.2.1
  match a with
  | ⟨0, _⟩ => show win0_28.index t (0 : Fin 2) * 32 + 1 * (y 0).val = (y 0).val; rw [e0]; omega
  | ⟨1, _⟩ => show win0_28.index t (1 : Fin 2) * 1 + 1 * (y 1).val = (y 1).val; rw [e1]; omega

theorem blk9 (c : Dev nD) (t : Fin cfg0.N) : iblk m c 9 t = m ((c : Thread nD τ).loc main_arg9) := by
  funext y
  show V m c main_arg9 (((cfg0.win 9).blk t).view.emb y) = _
  refine congrArg _ (funext fun a => Fin.ext ?_)
  have e0 := (idx_consts t).2.2.2.2.2.2.2.2.2.2.2.1
  match a with
  | ⟨0, _⟩ => show win0_9.index t (0 : Fin 1) * 128 + 1 * (y 0).val = (y 0).val; rw [e0]; omega

theorem blk11 (c : Dev nD) (t : Fin cfg0.N) : iblk m c 11 t = m ((c : Thread nD τ).loc main_arg11) := by
  funext y
  show V m c main_arg11 (((cfg0.win 11).blk t).view.emb y) = _
  refine congrArg _ (funext fun a => Fin.ext ?_)
  have e0 := (idx_consts t).2.2.2.2.2.2.2.2.2.2.2.2.1
  match a with
  | ⟨0, _⟩ => show win0_11.index t (0 : Fin 1) * 128 + 1 * (y 0).val = (y 0).val; rw [e0]; omega

theorem blk13 (c : Dev nD) (t : Fin cfg0.N) : iblk m c 13 t = m ((c : Thread nD τ).loc main_arg13) := by
  funext y
  show V m c main_arg13 (((cfg0.win 13).blk t).view.emb y) = _
  refine congrArg _ (funext fun a => Fin.ext ?_)
  have e0 := (idx_consts t).2.2.2.2.2.2.2.2.2.2.2.2.2.1
  match a with
  | ⟨0, _⟩ => show win0_13.index t (0 : Fin 1) * 128 + 1 * (y 0).val = (y 0).val; rw [e0]; omega

theorem blk15 (c : Dev nD) (t : Fin cfg0.N) : iblk m c 15 t = m ((c : Thread nD τ).loc main_arg15) := by
  funext y
  show V m c main_arg15 (((cfg0.win 15).blk t).view.emb y) = _
  refine congrArg _ (funext fun a => Fin.ext ?_)
  have e0 := (idx_consts t).2.2.2.2.2.2.2.2.2.2.2.2.2.2.1
  match a with
  | ⟨0, _⟩ => show win0_15.index t (0 : Fin 1) * 64 + 1 * (y 0).val = (y 0).val; rw [e0]; omega

theorem blk17 (c : Dev nD) (t : Fin cfg0.N) : iblk m c 17 t = m ((c : Thread nD τ).loc main_arg17) := by
  funext y
  show V m c main_arg17 (((cfg0.win 17).blk t).view.emb y) = _
  refine congrArg _ (funext fun a => Fin.ext ?_)
  have e0 := (idx_consts t).2.2.2.2.2.2.2.2.2.2.2.2.2.2.2.1
  match a with
  | ⟨0, _⟩ => show win0_17.index t (0 : Fin 1) * 256 + 1 * (y 0).val = (y 0).val; rw [e0]; omega

theorem blk19 (c : Dev nD) (t : Fin cfg0.N) : iblk m c 19 t = m ((c : Thread nD τ).loc main_arg19) := by
  funext y
  show V m c main_arg19 (((cfg0.win 19).blk t).view.emb y) = _
  refine congrArg _ (funext fun a => Fin.ext ?_)
  have e0 := (idx_consts t).2.2.2.2.2.2.2.2.2.2.2.2.2.2.2.2.1
  match a with
  | ⟨0, _⟩ => show win0_19.index t (0 : Fin 1) * 128 + 1 * (y 0).val = (y 0).val; rw [e0]; omega

theorem blk21 (c : Dev nD) (t : Fin cfg0.N) : iblk m c 21 t = m ((c : Thread nD τ).loc main_arg21) := by
  funext y
  show V m c main_arg21 (((cfg0.win 21).blk t).view.emb y) = _
  refine congrArg _ (funext fun a => Fin.ext ?_)
  have e0 := (idx_consts t).2.2.2.2.2.2.2.2.2.2.2.2.2.2.2.2.2.1
  match a with
  | ⟨0, _⟩ => show win0_21.index t (0 : Fin 1) * 64 + 1 * (y 0).val = (y 0).val; rw [e0]; omega

theorem blk23 (c : Dev nD) (t : Fin cfg0.N) : iblk m c 23 t = m ((c : Thread nD τ).loc main_arg23) := by
  funext y
  show V m c main_arg23 (((cfg0.win 23).blk t).view.emb y) = _
  refine congrArg _ (funext fun a => Fin.ext ?_)
  have e0 := (idx_consts t).2.2.2.2.2.2.2.2.2.2.2.2.2.2.2.2.2.2.1
  match a with
  | ⟨0, _⟩ => show win0_23.index t (0 : Fin 1) * 32 + 1 * (y 0).val = (y 0).val; rw [e0]; omega

theorem blk25 (c : Dev nD) (t : Fin cfg0.N) : iblk m c 25 t = m ((c : Thread nD τ).loc main_arg25) := by
  funext y
  show V m c main_arg25 (((cfg0.win 25).blk t).view.emb y) = _
  refine congrArg _ (funext fun a => Fin.ext ?_)
  have e0 := (idx_consts t).2.2.2.2.2.2.2.2.2.2.2.2.2.2.2.2.2.2.2.1
  match a with
  | ⟨0, _⟩ => show win0_25.index t (0 : Fin 1) * 1 + 1 * (y 0).val = (y 0).val; rw [e0]; omega

theorem blk27 (c : Dev nD) (t : Fin cfg0.N) : iblk m c 27 t = m ((c : Thread nD τ).loc main_arg27) := by
  funext y
  show V m c main_arg27 (((cfg0.win 27).blk t).view.emb y) = _
  refine congrArg _ (funext fun a => Fin.ext ?_)
  have e0 := (idx_consts t).2.2.2.2.2.2.2.2.2.2.2.2.2.2.2.2.2.2.2.2.1
  match a with
  | ⟨0, _⟩ => show win0_27.index t (0 : Fin 1) * 32 + 1 * (y 0).val = (y 0).val; rw [e0]; omega

theorem blk29 (c : Dev nD) (t : Fin cfg0.N) : iblk m c 29 t = m ((c : Thread nD τ).loc main_arg29) := by
  funext y
  show V m c main_arg29 (((cfg0.win 29).blk t).view.emb y) = _
  refine congrArg _ (funext fun a => Fin.ext ?_)
  have e0 := (idx_consts t).2.2.2.2.2.2.2.2.2.2.2.2.2.2.2.2.2.2.2.2.2
  match a with
  | ⟨0, _⟩ => show win0_29.index t (0 : Fin 1) * 1 + 1 * (y 0).val = (y 0).val; rw [e0]; omega

end Cert.KernelIdeal.Blocks

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Spec.lean ====
/-
  The network one row at a time.

  Every output row of both programs is a function of the same row of the eight row-major inputs and of the
  weights alone: two embeddings (operator features; the sample bitmap, scaled by the row's condition flag), two
  predicate poolings (the minimum, over the row's four predicates, of one shared dense layer), a node layer, two
  column-count layers sharing their weights, two merging layers, and two two-layer heads each ending in the
  logistic function.  This module states that function over the extended reals, over the row-level
  vocabulary of dense layers and rows laid end to end; no program is imported here.
-/
import proofs.«104223_j84061099917535_1_alg».proof.Proof.LibRowOps

noncomputable section

open scoped BigOperators

namespace NodeRows

open Idealize.ShloMosaic Idealize.ShloMosaic.ValueIdx RowOps

/-- The pooled predicate embedding of one row: the least, over the row's four predicates, of the shared dense layer. -/
def pool (W : (⟨2, ![128, 128]⟩ : Shape).Idx → EReal) (b : (⟨1, ![128]⟩ : Shape).Idx → EReal)
    (p : Fin 4 → Fin 128 → EReal) : Fin 128 → EReal :=
  fun h => min (min (min (dense W b (p 0) h) (dense W b (p 1) h)) (dense W b (p 2) h)) (dense W b (p 3) h)

/-- A two-layer head ending in the logistic function. -/
def head (W1 : (⟨2, ![64, 32]⟩ : Shape).Idx → EReal) (b1 : (⟨1, ![32]⟩ : Shape).Idx → EReal)
    (W2 : (⟨2, ![32, 1]⟩ : Shape).Idx → EReal) (b2 : (⟨1, ![1]⟩ : Shape).Idx → EReal) (x : Fin 64 → EReal) : Fin 1 → EReal :=
  fun j => Ideal.logistic (dense W2 b2 (relu (dense W1 b1 x)) j)

/-- The weights, in the order both programs take them. -/
structure Weights where
  W_op : (⟨2, ![64, 128]⟩ : Shape).Idx → EReal
  b_op : (⟨1, ![128]⟩ : Shape).Idx → EReal
  W_pred : (⟨2, ![128, 128]⟩ : Shape).Idx → EReal
  b_pred : (⟨1, ![128]⟩ : Shape).Idx → EReal
  W_bm : (⟨2, ![1000, 128]⟩ : Shape).Idx → EReal
  b_bm : (⟨1, ![128]⟩ : Shape).Idx → EReal
  W_cc : (⟨2, ![2, 64]⟩ : Shape).Idx → EReal
  b_cc : (⟨1, ![64]⟩ : Shape).Idx → EReal
  W_node : (⟨2, ![512, 256]⟩ : Shape).Idx → EReal
  b_node : (⟨1, ![256]⟩ : Shape).Idx → EReal
  W_m1 : (⟨2, ![384, 128]⟩ : Shape).Idx → EReal
  b_m1 : (⟨1, ![128]⟩ : Shape).Idx → EReal
  W_m2 : (⟨2, ![128, 64]⟩ : Shape).Idx → EReal
  b_m2 : (⟨1, ![64]⟩ : Shape).Idx → EReal
  W_c1 : (⟨2, ![64, 32]⟩ : Shape).Idx → EReal
  b_c1 : (⟨1, ![32]⟩ : Shape).Idx → EReal
  W_c2 : (⟨2, ![32, 1]⟩ : Shape).Idx → EReal
  b_c2 : (⟨1, ![1]⟩ : Shape).Idx → EReal
  W_k1 : (⟨2, ![64, 32]⟩ : Shape).Idx → EReal
  b_k1 : (⟨1, ![32]⟩ : Shape).Idx → EReal
  W_k2 : (⟨2, ![32, 1]⟩ : Shape).Idx → EReal
  b_k2 : (⟨1, ![1]⟩ : Shape).Idx → EReal

/-- One row of the eight row-major inputs. -/
structure Row where
  op : Fin 32 → EReal
  extra : Fin 32 → EReal
  bitmap : Fin 1000 → EReal
  hasCond : Fin 1 → EReal
  pred1 : Fin 4 → Fin 128 → EReal
  pred2 : Fin 4 → Fin 128 → EReal
  leftCc : Fin 2 → EReal
  rightCc : Fin 2 → EReal

/-- The operator embedding of a row. -/
def opEmb (w : Weights) (r : Row) : Fin 128 → EReal := dense w.W_op w.b_op (cat2 64 r.op r.extra)

/-- The bitmap embedding of a row, scaled by the row's condition flag. -/
def bmEmb (w : Weights) (r : Row) : Fin 128 → EReal := fun h => dense w.W_bm w.b_bm r.bitmap h * r.hasCond 0

/-- The node embedding of a row. -/
def nodeEmb (w : Weights) (r : Row) : Fin 256 → EReal :=
  relu (dense w.W_node w.b_node
    (cat4 512 (opEmb w r) (pool w.W_pred w.b_pred r.pred1) (pool w.W_pred w.b_pred r.pred2) (bmEmb w r)))

/-- A column-count embedding. -/
def ccEmb (w : Weights) (x : Fin 2 → EReal) : Fin 64 → EReal := relu (dense w.W_cc w.b_cc x)

/-- The merged features of a row, after the two merging layers. -/
def merged (w : Weights) (r : Row) : Fin 64 → EReal :=
  relu (dense w.W_m2 w.b_m2 (relu (dense w.W_m1 w.b_m1
    (cat3 384 (nodeEmb w r) (ccEmb w r.leftCc) (ccEmb w r.rightCc)))))

/-- The two predictions of a row: cost, then cardinality. -/
def net (w : Weights) (r : Row) : Fin 2 → EReal :=
  cat2 2 (head w.W_c1 w.b_c1 w.W_c2 w.b_c2 (merged w r)) (head w.W_k1 w.b_k1 w.W_k2 w.b_k2 (merged w r))

/-- Row `n` of the eight row-major arrays of `R` rows. -/
def rowOf {R : ℕ} (op extra : (⟨2, ![R, 32]⟩ : Shape).Idx → EReal) (bitmap : (⟨2, ![R, 1000]⟩ : Shape).Idx → EReal)
    (hasCond : (⟨2, ![R, 1]⟩ : Shape).Idx → EReal) (pred1 pred2 : (⟨3, ![R, 4, 128]⟩ : Shape).Idx → EReal)
    (leftCc rightCc : (⟨2, ![R, 2]⟩ : Shape).Idx → EReal) (n : Fin R) : Row where
  op := fun k => op (ix2 n k)
  extra := fun k => extra (ix2 n k)
  bitmap := fun k => bitmap (ix2 n k)
  hasCond := fun k => hasCond (ix2 n k)
  pred1 := fun s k => pred1 (ix3 n s k)
  pred2 := fun s k => pred2 (ix3 n s k)
  leftCc := fun k => leftCc (ix2 n k)
  rightCc := fun k => rightCc (ix2 n k)

end NodeRows

end
-- ==== Proof.KernelPayloads.lean ====
/-
  The kernel body's arithmetic, read one row at a time.

  Each stretch of the body's arithmetic is a pure function of the blocks it loads and of the values earlier
  stretches hand it.  Read at row `p` of the block, every one of them depends on row `p` of its row-major
  operands only: a dense layer is the row's product with the weights plus the bias, a concatenation lays
  rows end to end, the pooling is an entrywise minimum.  The lemmas below say so, stretch by stretch,
  in the row-level vocabulary.
-/
import proofs.«104223_j84061099917535_1_alg».proof.Proof.Gen.KernelIdeal.Skeleton
import proofs.«104223_j84061099917535_1_alg».proof.Proof.Spec

set_option maxRecDepth 16384

noncomputable section

open scoped BigOperators

namespace Cert.KernelIdeal.Rows

open Cert.KernelIdeal Cert.KernelIdeal.Gen Idealize.ShloMosaic Idealize.ShloMosaic.ValueIdx RowOps

variable (p : Fin 1024)

/-- The narrowed slab of a predicate block, at `(p, k)`: the slab's entry `(p, 0, k)`. -/
theorem pay5_row (v33 : Vec Ideal S1024x1x128 .f32) (k : Fin 128) :
    k0_pay5 (F := Ideal) v33 (ix2 p k) = v33 (ix3 p (0 : Fin 1) k) := by
  unfold k0_pay5
  simp only [truncf_apply, shapeCast_a1b_ab_apply]

/-- The first two predicates of the first pooling: the lesser of their two dense layers. -/
theorem pay3_row (v0 : Vec Ideal S128x128 .f32) (v2 : Vec Ideal S128 .f32) (v3 v17 : Vec Ideal S1024x1x128 .f32) (h : Fin 128) :
    k0_pay3 v0 v2 v3 v17 (ix2 p h)
      = min (dense v0 v2 (fun k => v3 (ix3 p (0 : Fin 1) k)) h) (dense v0 v2 (fun k => v17 (ix3 p (0 : Fin 1) k)) h) := by
  unfold k0_pay3 k0_pay2
  simp only [minimumf_apply, addf_apply, matmul_plain_apply dot_S1024x128_S128x128_S1024x128_1_0_0_1_n_n rfl none,
    bias_cast_apply, truncf_apply, shapeCast_a1b_ab_apply]
  rfl

/-- The same for the second pooling. -/
theorem pay4_row (v0 : Vec Ideal S128x128 .f32) (v2 : Vec Ideal S128 .f32) (v10 v24 : Vec Ideal S1024x1x128 .f32) (h : Fin 128) :
    k0_pay4 v0 v2 v10 v24 (ix2 p h)
      = min (dense v0 v2 (fun k => v10 (ix3 p (0 : Fin 1) k)) h) (dense v0 v2 (fun k => v24 (ix3 p (0 : Fin 1) k)) h) := by
  unfold k0_pay4 k0_pay2
  simp only [minimumf_apply, addf_apply, matmul_plain_apply dot_S1024x128_S128x128_S1024x128_1_0_0_1_n_n rfl none,
    bias_cast_apply, truncf_apply, shapeCast_a1b_ab_apply]
  rfl

/-- The first pooling completed: the running minimum against the third and fourth predicates' dense layers. -/
theorem pay6_row (v0 : Vec Ideal S128x128 .f32) (v2 : Vec Ideal S128 .f32) (v31 : FVec Ideal S1024x128 .f32)
    (v33 v49 : Vec Ideal S1024x1x128 .f32) (h : Fin 128) :
    k0_pay6 (k0_pay2 v0) v2 v31 (k0_pay5 v33) (constant S1024x128 .f32 0x00000000#32) v49 (ix2 p h)
      = min (min (v31 (ix2 p h)) (dense v0 v2 (fun k => v33 (ix3 p (0 : Fin 1) k)) h))
          (dense v0 v2 (fun k => v49 (ix3 p (0 : Fin 1) k)) h) := by
  unfold k0_pay6 k0_pay2 k0_pay5
  simp only [minimumf_apply, addf_apply, matmul_plain_apply dot_S1024x128_S128x128_S1024x128_1_0_0_1_n_n rfl none,
    bias_cast_apply, truncf_apply, shapeCast_a1b_ab_apply]
  rfl

/-- The second pooling completed. -/
theorem pay7_row (v0 : Vec Ideal S128x128 .f32) (v2 : Vec Ideal S128 .f32) (v32 : FVec Ideal S1024x128 .f32)
    (v40 v56 : Vec Ideal S1024x1x128 .f32) (h : Fin 128) :
    k0_pay7 (k0_pay2 v0) v2 v32 v40 v56 (ix2 p h)
      = min (min (v32 (ix2 p h)) (dense v0 v2 (fun k => v40 (ix3 p (0 : Fin 1) k)) h))
          (dense v0 v2 (fun k => v56 (ix3 p (0 : Fin 1) k)) h) := by
  unfold k0_pay7 k0_pay2
  simp only [minimumf_apply, addf_apply, matmul_plain_apply dot_S1024x128_S128x128_S1024x128_1_0_0_1_n_n rfl none,
    bias_cast_apply, truncf_apply, shapeCast_a1b_ab_apply]
  rfl

/-- The first pooling whole: over any four slabs with known rows, the least of the four dense layers. -/
theorem pool6_row (v0 : Vec Ideal S128x128 .f32) (v2 : Vec Ideal S128 .f32) (s0 s1 s2 s3 : Vec Ideal S1024x1x128 .f32)
    (r0 r1 r2 r3 : Fin 128 → EReal) (h0 : ∀ k, s0 (ix3 p (0 : Fin 1) k) = r0 k) (h1 : ∀ k, s1 (ix3 p (0 : Fin 1) k) = r1 k)
    (h2 : ∀ k, s2 (ix3 p (0 : Fin 1) k) = r2 k) (h3 : ∀ k, s3 (ix3 p (0 : Fin 1) k) = r3 k) (h : Fin 128) :
    k0_pay6 (k0_pay2 v0) v2 (k0_pay3 v0 v2 s0 s1) (k0_pay5 s2) (constant S1024x128 .f32 0x00000000#32) s3 (ix2 p h)
      = min (min (min (dense v0 v2 r0 h) (dense v0 v2 r1 h)) (dense v0 v2 r2 h)) (dense v0 v2 r3 h) := by
  simp only [pay6_row, pay3_row, h0, h1, h2, h3]

/-- The second pooling whole. -/
theorem pool7_row (v0 : Vec Ideal S128x128 .f32) (v2 : Vec Ideal S128 .f32) (s0 s1 s2 s3 : Vec Ideal S1024x1x128 .f32)
    (r0 r1 r2 r3 : Fin 128 → EReal) (h0 : ∀ k, s0 (ix3 p (0 : Fin 1) k) = r0 k) (h1 : ∀ k, s1 (ix3 p (0 : Fin 1) k) = r1 k)
    (h2 : ∀ k, s2 (ix3 p (0 : Fin 1) k) = r2 k) (h3 : ∀ k, s3 (ix3 p (0 : Fin 1) k) = r3 k) (h : Fin 128) :
    k0_pay7 (k0_pay2 v0) v2 (k0_pay4 v0 v2 s0 s1) s2 s3 (ix2 p h)
      = min (min (min (dense v0 v2 r0 h) (dense v0 v2 r1 h)) (dense v0 v2 r2 h)) (dense v0 v2 r3 h) := by
  simp only [pay7_row, pay4_row, h0, h1, h2, h3]

/-- The operator embedding: the dense layer of the two feature rows laid end to end. -/
theorem pay8_row (v65 v66 : Vec Ideal S1024x32 .f32) (v69 : Vec Ideal S64x128 .f32) (v72 : Vec Ideal S128 .f32) (h : Fin 128) :
    k0_pay8 v65 v66 v69 v72 (ix2 p h)
      = dense v69 v72 (cat2 64 (fun k => v65 (ix2 p k)) (fun k => v66 (ix2 p k))) h := by
  unfold k0_pay8
  simp only [addf_apply, matmul_plain_apply dot_S1024x64_S64x128_S1024x128_1_0_0_1_n_n rfl none, bias_cast_apply,
    truncf_apply, cat2_apply (A := 32) (B := 32) (C := 64) _ _ _ rfl]
  rfl

/-- The node embedding: the positive part of the dense layer of the four embeddings laid end to end, the bitmap's
    own dense layer scaled by the row's condition flag. -/
theorem pay9_row (v63 v64 v75 : FVec Ideal S1024x128 .f32) (v76 : Vec Ideal S1024x1000 .f32) (v78 : Vec Ideal S1000x128 .f32)
    (v81 : Vec Ideal S128 .f32) (v85 : Vec Ideal S1024x1 .f32) (v90 : Vec Ideal S512x256 .f32) (v93 : Vec Ideal S256 .f32)
    (h : Fin 256) :
    k0_pay9 v63 v64 v75 v76 v78 v81 v85 v90 v93 (ix2 p h)
      = relu (dense v90 v93 (cat4 512 (fun k => v75 (ix2 p k)) (fun k => v63 (ix2 p k)) (fun k => v64 (ix2 p k))
          (fun j => dense v78 v81 (fun k => v76 (ix2 p k)) j * v85 (ix2 p (0 : Fin 1))))) h := by
  unfold k0_pay9
  simp only [maximumf_apply, broadcast_apply, addf_apply, mulf_apply,
    matmul_plain_apply dot_S1024x512_S512x256_S1024x256_1_0_0_1_n_n rfl none,
    matmul_plain_apply dot_S1024x1000_S1000x128_S1024x128_1_0_0_1_n_n rfl none, bias_cast_apply, broadcastTo_a1_ab_apply,
    truncf_apply, cat4_apply (A := 128) (B := 128) (D := 128) (E := 128) (C := 512) _ _ _ _ _ rfl]
  rfl

/-- A column-count embedding. -/
theorem pay11_row (v99 : Vec Ideal S2x64 .f32) (v101 : Vec Ideal S64 .f32) (v102 : Vec Ideal S1024x2 .f32) (h : Fin 64) :
    k0_pay11 v99 v101 v102 (ix2 p h) = relu (dense v99 v101 (fun k => v102 (ix2 p k))) h := by
  unfold k0_pay11 k0_pay10
  simp only [maximumf_apply, broadcast_apply, addf_apply, matmul_plain_apply dot_S1024x2_S2x64_S1024x64_1_0_0_1_n_n rfl none,
    bias_cast_apply, truncf_apply]
  rfl

/-- The other column-count product, before its bias. -/
theorem pay12_row (v99 : Vec Ideal S2x64 .f32) (v110 : Vec Ideal S1024x2 .f32) (h : Fin 64) :
    k0_pay12 v99 v110 (ix2 p h) = ∑ k : Fin 2, v110 (ix2 p k) * v99 (ix2 k h) := by
  unfold k0_pay12 k0_pay10
  simp only [matmul_plain_apply dot_S1024x2_S2x64_S1024x64_1_0_0_1_n_n rfl none, truncf_apply]

/-- The merged features: two merging layers over the node embedding and the two column-count embeddings laid end to end. -/
theorem pay13_row (v98 : FVec Ideal S1024x256 .f32) (v101 : Vec Ideal S64 .f32) (v109 v112 : FVec Ideal S1024x64 .f32)
    (v120 : Vec Ideal S384x128 .f32) (v123 : Vec Ideal S128 .f32) (v130 : Vec Ideal S128x64 .f32) (v133 : Vec Ideal S64 .f32)
    (h : Fin 64) :
    k0_pay13 v98 v101 v109 v112 v120 v123 v130 v133 (ix2 p h)
      = relu (dense v130 v133 (relu (dense v120 v123 (cat3 384 (fun k => v98 (ix2 p k)) (fun k => v109 (ix2 p k))
          (relu (fun j => v112 (ix2 p j) + v101 (ix1 j))))))) h := by
  unfold k0_pay13
  simp only [maximumf_apply, broadcast_apply, addf_apply,
    matmul_plain_apply dot_S1024x384_S384x128_S1024x128_1_0_0_1_n_n rfl none,
    matmul_plain_apply dot_S1024x128_S128x64_S1024x64_1_0_0_1_n_n rfl none, bias_cast_apply, truncf_apply,
    cat3_apply (A := 256) (B := 64) (D := 64) (C := 384) _ _ _ _ rfl]
  rfl

/-- The cost head's last product, before its bias. -/
theorem pay14_row (v98 : FVec Ideal S1024x256 .f32) (v101 : Vec Ideal S64 .f32) (v109 v112 : FVec Ideal S1024x64 .f32)
    (v120 : Vec Ideal S384x128 .f32) (v123 : Vec Ideal S128 .f32) (v130 : Vec Ideal S128x64 .f32) (v133 : Vec Ideal S64 .f32)
    (v140 : Vec Ideal S64x32 .f32) (v143 : Vec Ideal S32 .f32) (v150 : Vec Ideal S32x1 .f32) (j : Fin 1) :
    k0_pay14 v98 v101 v109 v112 v120 v123 v130 v133 v140 v143 v150 (ix2 p j)
      = ∑ k : Fin 32, relu (dense v140 v143 (fun i => k0_pay13 v98 v101 v109 v112 v120 v123 v130 v133 (ix2 p i))) k * v150 (ix2 k j) := by
  unfold k0_pay14
  simp only [maximumf_apply, broadcast_apply, addf_apply,
    matmul_plain_apply dot_S1024x64_S64x32_S1024x32_1_0_0_1_n_n rfl none,
    matmul_plain_apply dot_S1024x32_S32x1_S1024x1_1_0_0_1_n_n rfl none, bias_cast_apply, truncf_apply]
  rfl

/-- The stored block: the two heads' logistic outputs side by side. -/
theorem pay1_row (v138 : FVec Ideal S1024x64 .f32) (v152 : FVec Ideal S1024x1 .f32) (v153 : Vec Ideal S1 .f32)
    (v159 : Vec Ideal S64x32 .f32) (v162 : Vec Ideal S32 .f32) (v169 : Vec Ideal S32x1 .f32) (v172 : Vec Ideal S1 .f32) (q : Fin 2) :
    k0_pay1 v138 v152 v153 v159 v162 v169 v172 (ix2 p q)
      = cat2 2 (fun j : Fin 1 => Ideal.logistic (v152 (ix2 p j) + v153 (ix1 j)))
          (fun j : Fin 1 => Ideal.logistic (dense v169 v172 (relu (dense v159 v162 (fun k => v138 (ix2 p k)))) j)) q := by
  unfold k0_pay1
  simp only [maximumf_apply, broadcast_apply, addf_apply,
    matmul_plain_apply dot_S1024x64_S64x32_S1024x32_1_0_0_1_n_n rfl none,
    matmul_plain_apply dot_S1024x32_S32x1_S1024x1_1_0_0_1_n_n rfl none, bias_cast_apply, truncf_apply,
    cat2_apply (A := 1) (B := 1) (C := 2) _ _ _ rfl, logistic_apply]
  rfl

end Cert.KernelIdeal.Rows

end
-- ==== Proof.KernelRow.lean ====
/-
  One row of the block the kernel stores.

  The body's one store writes, at row `p` of its block, the row-level network of row `p` of the eight
  row-major input blocks and of the weight blocks: the stretches of the body's arithmetic compose, each read
  at that row, and every load but the predicate slabs reads a whole block.
-/
import proofs.«104223_j84061099917535_1_alg».proof.Proof.KernelIdealFrameP
import proofs.«104223_j84061099917535_1_alg».proof.Proof.KernelPayloads

set_option maxRecDepth 16384

noncomputable section

open scoped BigOperators

namespace Cert.KernelIdeal.Rows

open Cert.KernelIdeal Cert.KernelIdeal.Gen Cert.KernelIdeal.GenP Idealize.ShloMosaic Idealize.ShloMosaic.ValueIdx RowOps NodeRows

theorem hz1 : (![0] : Fin 1 → ℕ) = fun _ => 0 := funext fun a => by fin_cases a; rfl
theorem hz2 : (![0, 0] : Fin 2 → ℕ) = fun _ => 0 := funext fun a => by fin_cases a <;> rfl

/-- The four predicate slabs a block is loaded by: slab `s` at `(p, 0, k)` is the block at `(p, s, k)`. -/
theorem slab0 (x : Vec Ideal S1024x4x128 .f32) (p : Fin 1024) (k : Fin 128) :
    View.ld x r0_2 (ix3 (n0 := 1024) (n1 := 1) (n2 := 128) p (0 : Fin 1) k) = x (ix3 p (0 : Fin 4) k) := (ld_mid_apply x 0 (by decide) _ p k).trans rfl
theorem slab1 (x : Vec Ideal S1024x4x128 .f32) (p : Fin 1024) (k : Fin 128) :
    View.ld x r0_3 (ix3 (n0 := 1024) (n1 := 1) (n2 := 128) p (0 : Fin 1) k) = x (ix3 p (1 : Fin 4) k) := (ld_mid_apply x 1 (by decide) _ p k).trans rfl
theorem slab2 (x : Vec Ideal S1024x4x128 .f32) (p : Fin 1024) (k : Fin 128) :
    View.ld x r0_4 (ix3 (n0 := 1024) (n1 := 1) (n2 := 128) p (0 : Fin 1) k) = x (ix3 p (2 : Fin 4) k) := (ld_mid_apply x 2 (by decide) _ p k).trans rfl
theorem slab3 (x : Vec Ideal S1024x4x128 .f32) (p : Fin 1024) (k : Fin 128) :
    View.ld x r0_5 (ix3 (n0 := 1024) (n1 := 1) (n2 := 128) p (0 : Fin 1) k) = x (ix3 p (3 : Fin 4) k) := (ld_mid_apply x 3 (by decide) _ p k).trans rfl

section Stages

variable (x0 x1 : Vec Ideal S1024x32 .f32) (x2 : Vec Ideal S1024x1000 .f32) (x3 : Vec Ideal S1024x1 .f32) (x4 x5 : Vec Ideal S1024x4x128 .f32) (x6 x7 : Vec Ideal S1024x2 .f32)
    (x8 : Vec Ideal S64x128 .f32) (x9 : Vec Ideal S128 .f32) (x10 : Vec Ideal S128x128 .f32) (x11 : Vec Ideal S128 .f32) (x12 : Vec Ideal S1000x128 .f32) (x13 : Vec Ideal S128 .f32)
    (x14 : Vec Ideal S2x64 .f32) (x15 : Vec Ideal S64 .f32) (x16 : Vec Ideal S512x256 .f32) (x17 : Vec Ideal S256 .f32) (x18 : Vec Ideal S384x128 .f32) (x19 : Vec Ideal S128 .f32)
    (x20 : Vec Ideal S128x64 .f32) (x21 : Vec Ideal S64 .f32) (x22 : Vec Ideal S64x32 .f32) (x23 : Vec Ideal S32 .f32) (x24 : Vec Ideal S32x1 .f32) (x25 : Vec Ideal S1 .f32)
    (x26 : Vec Ideal S64x32 .f32) (x27 : Vec Ideal S32 .f32) (x28 : Vec Ideal S32x1 .f32) (x29 : Vec Ideal S1 .f32)
    (p : Fin 1024)

include x0 x1 x2 x3 x4 x5 x6 x7 x8 x9 x10 x11 x12 x13 x14 x15 x16 x17 x18 x19 x20 x21 x22 x23 x24 x25 x26 x27 x28 x29 p

set_option quotPrecheck false in
local notation "𝓦" => (⟨x8, x9, x10, x11, x12, x13, x14, x15, x16, x17, x18, x19, x20, x21, x22, x23, x24, x25, x26, x27, x28, x29⟩ : Weights)
set_option quotPrecheck false in
local notation "𝓻" => rowOf x0 x1 x2 x3 x4 x5 x6 x7 p

/-- The first pooling, over the four slabs of the first predicate block. -/
theorem pool1_row (h : Fin 128) :
    k0_pay6 (k0_pay2 x10) x11 (k0_pay3 x10 x11 (View.ld x4 r0_2) (View.ld x4 r0_3)) (k0_pay5 (View.ld x4 r0_4))
        (constant S1024x128 .f32 0x00000000#32) (View.ld x4 r0_5) (ix2 p h)
      = pool x10 x11 (𝓻).pred1 h :=
  pool6_row p x10 x11 _ _ _ _ _ _ _ _ (slab0 x4 p) (slab1 x4 p) (slab2 x4 p) (slab3 x4 p) h

/-- The second pooling. -/
theorem pool2_row (h : Fin 128) :
    k0_pay7 (k0_pay2 x10) x11 (k0_pay4 x10 x11 (View.ld x5 r0_2) (View.ld x5 r0_3)) (View.ld x5 r0_4) (View.ld x5 r0_5) (ix2 p h)
      = pool x10 x11 (𝓻).pred2 h :=
  pool7_row p x10 x11 _ _ _ _ _ _ _ _ (slab0 x5 p) (slab1 x5 p) (slab2 x5 p) (slab3 x5 p) h

/-- The operator embedding. -/
theorem op_row (h : Fin 128) : k0_pay8 x0 x1 x8 x9 (ix2 p h) = opEmb 𝓦 𝓻 h := by
  simp only [pay8_row]
  rfl

/-- The node embedding, from the rows of the three embeddings it is handed. -/
theorem node_row (v63 v64 v75 : FVec Ideal S1024x128 .f32)
    (h63 : ∀ h, v63 (ix2 p h) = pool x10 x11 (𝓻).pred1 h) (h64 : ∀ h, v64 (ix2 p h) = pool x10 x11 (𝓻).pred2 h)
    (h75 : ∀ h, v75 (ix2 p h) = opEmb 𝓦 𝓻 h) (h : Fin 256) :
    k0_pay9 v63 v64 v75 x2 x12 x13 x3 x16 x17 (ix2 p h) = nodeEmb 𝓦 𝓻 h := by
  simp only [pay9_row, h63, h64, h75]
  rfl

/-- The left column-count embedding. -/
theorem ccl_row (h : Fin 64) : k0_pay11 x14 x15 x6 (ix2 p h) = ccEmb 𝓦 (𝓻).leftCc h := by
  simp only [pay11_row]
  rfl

/-- The merged features, from the rows of the node embedding and the column-count values it is handed. -/
theorem merged_row (v98 : FVec Ideal S1024x256 .f32) (v109 v112 : FVec Ideal S1024x64 .f32)
    (h98 : ∀ h, v98 (ix2 p h) = nodeEmb 𝓦 𝓻 h) (h109 : ∀ h, v109 (ix2 p h) = ccEmb 𝓦 (𝓻).leftCc h)
    (h112 : ∀ h, v112 (ix2 p h) = ∑ k : Fin 2, x7 (ix2 p k) * x14 (ix2 k h)) (h : Fin 64) :
    k0_pay13 v98 x15 v109 v112 x18 x19 x20 x21 (ix2 p h) = merged 𝓦 𝓻 h := by
  simp only [pay13_row, h98, h109, h112]
  rfl

/-- The stored row, from the rows of the merged features and of the cost head's last product. -/
theorem store_row (v138 : FVec Ideal S1024x64 .f32) (v152 : FVec Ideal S1024x1 .f32)
    (h138 : ∀ h, v138 (ix2 p h) = merged 𝓦 𝓻 h)
    (h152 : ∀ j, v152 (ix2 p j) = ∑ k : Fin 32, relu (dense x22 x23 (merged 𝓦 𝓻)) k * x24 (ix2 k j)) (q : Fin 2) :
    k0_pay1 v138 v152 x25 x26 x27 x28 x29 (ix2 p q) = net 𝓦 𝓻 q := by
  simp only [pay1_row, h138, h152]
  rfl

/-- Row `p` of the stored block is the network of row `p` of the input blocks. -/
theorem out_row (q : Fin 2) :
    out0_30 (F := Ideal) x0 x1 x2 x3 x4 x5 x6 x7 x8 x9 x10 x11 x12 x13 x14 x15 x16 x17 x18 x19 x20 x21 x22 x23 x24 x25 x26 x27 x28 x29 (ix2 p q) = net 𝓦 𝓻 q := by
  unfold out0_30
  rw [View.canon_unit_zero hz2]
  simp only [View.ld_unit_zero (S := S128x128) hz2, View.ld_unit_zero (S := S1024x32) hz2, View.ld_unit_zero (S := S64x128) hz2, View.ld_unit_zero (S := S1024x1000) hz2, View.ld_unit_zero (S := S1000x128) hz2, View.ld_unit_zero (S := S1024x1) hz2, View.ld_unit_zero (S := S512x256) hz2, View.ld_unit_zero (S := S2x64) hz2, View.ld_unit_zero (S := S1024x2) hz2, View.ld_unit_zero (S := S384x128) hz2, View.ld_unit_zero (S := S128x64) hz2, View.ld_unit_zero (S := S64x32) hz2, View.ld_unit_zero (S := S32x1) hz2,
    View.ld_unit_zero (S := S128) hz1, View.ld_unit_zero (S := S256) hz1, View.ld_unit_zero (S := S64) hz1, View.ld_unit_zero (S := S32) hz1, View.ld_unit_zero (S := S1) hz1]
  have hnode : ∀ h, k0_pay9 (k0_pay6 (k0_pay2 x10) x11 (k0_pay3 x10 x11 (View.ld x4 r0_2) (View.ld x4 r0_3)) (k0_pay5 (View.ld x4 r0_4))
        (constant S1024x128 .f32 0x00000000#32) (View.ld x4 r0_5))
      (k0_pay7 (k0_pay2 x10) x11 (k0_pay4 x10 x11 (View.ld x5 r0_2) (View.ld x5 r0_3)) (View.ld x5 r0_4) (View.ld x5 r0_5))
      (k0_pay8 x0 x1 x8 x9) x2 x12 x13 x3 x16 x17 (ix2 p h) = nodeEmb 𝓦 𝓻 h :=
    fun h => node_row x0 x1 x2 x3 x4 x5 x6 x7 x8 x9 x10 x11 x12 x13 x14 x15 x16 x17 x18 x19 x20 x21 x22 x23 x24 x25 x26 x27 x28 x29 p _ _ _ (pool1_row x0 x1 x2 x3 x4 x5 x6 x7 x8 x9 x10 x11 x12 x13 x14 x15 x16 x17 x18 x19 x20 x21 x22 x23 x24 x25 x26 x27 x28 x29 p) (pool2_row x0 x1 x2 x3 x4 x5 x6 x7 x8 x9 x10 x11 x12 x13 x14 x15 x16 x17 x18 x19 x20 x21 x22 x23 x24 x25 x26 x27 x28 x29 p) (op_row x0 x1 x2 x3 x4 x5 x6 x7 x8 x9 x10 x11 x12 x13 x14 x15 x16 x17 x18 x19 x20 x21 x22 x23 x24 x25 x26 x27 x28 x29 p) h
  have hmerged := fun h => merged_row x0 x1 x2 x3 x4 x5 x6 x7 x8 x9 x10 x11 x12 x13 x14 x15 x16 x17 x18 x19 x20 x21 x22 x23 x24 x25 x26 x27 x28 x29 p _ _ _ hnode (ccl_row x0 x1 x2 x3 x4 x5 x6 x7 x8 x9 x10 x11 x12 x13 x14 x15 x16 x17 x18 x19 x20 x21 x22 x23 x24 x25 x26 x27 x28 x29 p) (pay12_row p x14 x7) h
  refine store_row x0 x1 x2 x3 x4 x5 x6 x7 x8 x9 x10 x11 x12 x13 x14 x15 x16 x17 x18 x19 x20 x21 x22 x23 x24 x25 x26 x27 x28 x29 p _ _ hmerged (fun j => ?_) q
  rw [pay14_row]
  simp only [hmerged]

end Stages

end Cert.KernelIdeal.Rows

end
-- ==== Proof.KernelValue.lean ====
/-
  The array the kernel leaves: the network, row by row.

  Point `t` of the grid writes back rows `1024 t … 1024 t + 1023` of the result, each the row-level network of
  the same row of the argument arrays; the 64 blocks tile the 65536 rows, so the array ends holding the network
  of every row.
-/
import proofs.«104223_j84061099917535_1_alg».proof.Proof.KernelBlocks
import proofs.«104223_j84061099917535_1_alg».proof.Proof.KernelRow

set_option maxRecDepth 16384

noncomputable section

namespace Cert.KernelIdeal.RowValue

open Cert.KernelIdeal Cert.KernelIdeal.Gen Cert.KernelIdeal.GenP Idealize.ShloMosaic Idealize.ShloMosaic.TcCoe Idealize.SL.Sem
open Idealize.ShloMosaic.ValueIdx RowOps NodeRows Cert.KernelIdeal.Blocks Cert.KernelIdeal.Rows
open Idealize.ShloMosaic.Pipeline (Dat)

variable (m : (ℓ : Loc nD τ sig) → Buf (Elt Ideal) ℓ)

/-- The weights as core `c` holds them. -/
abbrev weights (c : Dev nD) : Weights :=
  ⟨(m ((c : Thread nD τ).loc main_arg8)),
   (m ((c : Thread nD τ).loc main_arg9)),
   (m ((c : Thread nD τ).loc main_arg10)),
   (m ((c : Thread nD τ).loc main_arg11)),
   (m ((c : Thread nD τ).loc main_arg12)),
   (m ((c : Thread nD τ).loc main_arg13)),
   (m ((c : Thread nD τ).loc main_arg14)),
   (m ((c : Thread nD τ).loc main_arg15)),
   (m ((c : Thread nD τ).loc main_arg16)),
   (m ((c : Thread nD τ).loc main_arg17)),
   (m ((c : Thread nD τ).loc main_arg18)),
   (m ((c : Thread nD τ).loc main_arg19)),
   (m ((c : Thread nD τ).loc main_arg20)),
   (m ((c : Thread nD τ).loc main_arg21)),
   (m ((c : Thread nD τ).loc main_arg22)),
   (m ((c : Thread nD τ).loc main_arg23)),
   (m ((c : Thread nD τ).loc main_arg24)),
   (m ((c : Thread nD τ).loc main_arg25)),
   (m ((c : Thread nD τ).loc main_arg26)),
   (m ((c : Thread nD τ).loc main_arg27)),
   (m ((c : Thread nD τ).loc main_arg28)),
   (m ((c : Thread nD τ).loc main_arg29))⟩

/-- Row `n` of the eight row-major arguments on core `c`. -/
abbrev rowAt (c : Dev nD) (n : Fin 65536) : Row :=
  rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n

/-- The result: at `(n, q)`, prediction `q` of the network on row `n`. -/
def result (c : Dev nD) : S65536x2.Idx → Elt Ideal .f32 :=
  fun i => net (weights m c) (rowAt m c ⟨(i 0).val, idx2_lt0 i⟩) ⟨(i 1).val, idx2_lt1 i⟩

/-- The rows a point's input blocks hold are rows of the arguments. -/
theorem row_blocks (c : Dev nD) (t : Fin cfg0.N) (p : Fin 1024) :
    rowOf (iblk m c 0 t) (iblk m c 1 t) (iblk m c 2 t) (iblk m c 3 t) (iblk m c 4 t) (iblk m c 5 t) (iblk m c 6 t) (iblk m c 7 t) p
      = rowAt m c (arow t p) := by
  simp only [rowOf, blk0, blk1, blk2, blk3, blk4, blk5, blk6, blk7]

/-- What point `t` writes back is block `t` of the result. -/
theorem flushed_eq (c : Dev nD) (t : Fin cfg0.N) (_ : (cfg0.win 30).flush t = true) :
    (dats m 0 c).flushed 30 t = ((cfg0.win 30).blk t).view.read (Elt Ideal) (result m c) := by
  rw [Cert.KernelIdeal.ValueP.flushed30]
  funext j
  obtain ⟨p, q, rfl⟩ : ∃ (p : Fin 1024) (q : Fin 2), j = ix2 p q := ⟨j 0, j 1, eq_ix2 j⟩
  show out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (ix2 p q)
      = result m c (((cfg0.win 30).blk t).view.emb (ix2 p q))
  refine (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) p q).trans ?_
  rw [out_emb, row_blocks, blk8, blk9, blk10, blk11, blk12, blk13, blk14, blk15, blk16, blk17, blk18, blk19, blk20, blk21, blk22, blk23, blk24, blk25, blk26, blk27, blk28, blk29]
  rfl

/-- Every row of the result lies in the block of the point that holds it. -/
theorem cover (i : S65536x2.Idx) : ∃ t : Fin cfg0.N, (cfg0.win 30).flush t = true ∧ i ∈ ((cfg0.win 30).blk t).view.set := by
  have h0 : (i 0).val < 65536 := (i 0).isLt
  have h1 : (i 1).val < 2 := (i 1).isLt
  have hN : cfg0.N = 64 := N_0
  let t : Fin cfg0.N := ⟨(i 0).val / 1024, by rw [hN]; omega⟩
  refine ⟨t, flush0_30 t, ?_⟩
  show i ∈ ((View.whole main_v0).slice (win0_30.rect t)).set
  rw [View.set_slice_whole, Rect.mem_set_unit]
  obtain ⟨e0, e1⟩ := (idx_rows t).2.2.2.2.2.2.2.2
  intro a
  match a with
  | ⟨0, _⟩ =>
    show win0_30.index t (0 : Fin 2) * 1024 ≤ (i 0).val ∧ (i 0).val < win0_30.index t (0 : Fin 2) * 1024 + 1024
    rw [e0]; show (i 0).val / 1024 * 1024 ≤ (i 0).val ∧ (i 0).val < (i 0).val / 1024 * 1024 + 1024; omega
  | ⟨1, _⟩ =>
    show win0_30.index t (1 : Fin 2) * 2 ≤ (i 1).val ∧ (i 1).val < win0_30.index t (1 : Fin 2) * 2 + 2
    rw [e1]; omega

/-- The array after the run is the result. -/
theorem final (c : Dev nD) : (dats m 0 c).arrAt 30 cfg0.N = result m c :=
  (dats m 0 c).arrAt_eq_of_cover 30 (result m c) (flushed_eq m c) (cover)

end Cert.KernelIdeal.RowValue

end
-- ==== Proof.RefRows.lean ====
/-
  The reference, read one row at a time.

  The reference applies the same layers to whole arrays of 65536 rows.  Read at row `n`, each stage of
  its run depends on row `n` of the row-major inputs only, and is the row-level function of that row: the
  predicate poolings are the host's minimum over the axis of the four predicates, the dense layers its
  `dot_general` plus a broadcast bias, the logistic function its own expansion into negate, exponential,
  add and divide.  Stage by stage the lemmas below identify the run's term with the row-level network.
-/
import proofs.«104223_j84061099917535_1_alg».proof.Proof.ReferenceReadP
import proofs.«104223_j84061099917535_1_alg».proof.Proof.Spec
import Idealize.ShloMosaic.Lib.IdealHost

set_option maxRecDepth 16384

noncomputable section

open scoped BigOperators

namespace Cert.ReferenceIdeal.Rows

open Cert.ReferenceIdeal Cert.ReferenceIdeal.Gen Cert.ReferenceIdeal.ReadP Idealize.ShloMosaic Idealize.ShloMosaic.ValueIdx RowOps NodeRows

variable (x0 x1 : (⟨S65536x32, .f32⟩ : BufTy).Contents (Elt Ideal)) (x2 : (⟨S65536x1000, .f32⟩ : BufTy).Contents (Elt Ideal)) (x3 : (⟨S65536x1, .f32⟩ : BufTy).Contents (Elt Ideal))
  (x4 x5 : (⟨S65536x4x128, .f32⟩ : BufTy).Contents (Elt Ideal)) (x6 x7 : (⟨S65536x2, .f32⟩ : BufTy).Contents (Elt Ideal))
  (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
  (x12 : (⟨S1000x128, .f32⟩ : BufTy).Contents (Elt Ideal)) (x13 : (⟨S128, .f32⟩ : BufTy).Contents (Elt Ideal)) (x14 : (⟨S2x64, .f32⟩ : BufTy).Contents (Elt Ideal)) (x15 : (⟨S64, .f32⟩ : BufTy).Contents (Elt Ideal))
  (x16 : (⟨S512x256, .f32⟩ : BufTy).Contents (Elt Ideal)) (x17 : (⟨S256, .f32⟩ : BufTy).Contents (Elt Ideal)) (x18 : (⟨S384x128, .f32⟩ : BufTy).Contents (Elt Ideal)) (x19 : (⟨S128, .f32⟩ : BufTy).Contents (Elt Ideal))
  (x20 : (⟨S128x64, .f32⟩ : BufTy).Contents (Elt Ideal)) (x21 : (⟨S64, .f32⟩ : BufTy).Contents (Elt Ideal)) (x22 : (⟨S64x32, .f32⟩ : BufTy).Contents (Elt Ideal)) (x23 : (⟨S32, .f32⟩ : BufTy).Contents (Elt Ideal))
  (x24 : (⟨S32x1, .f32⟩ : BufTy).Contents (Elt Ideal)) (x25 : (⟨S1, .f32⟩ : BufTy).Contents (Elt Ideal)) (x26 : (⟨S64x32, .f32⟩ : BufTy).Contents (Elt Ideal)) (x27 : (⟨S32, .f32⟩ : BufTy).Contents (Elt Ideal))
  (x28 : (⟨S32x1, .f32⟩ : BufTy).Contents (Elt Ideal)) (x29 : (⟨S1, .f32⟩ : BufTy).Contents (Elt Ideal))
  (n : Fin 65536)

/-- The weights as the reference takes them. -/
abbrev W : Weights := ⟨x8, x9, x10, x11, x12, x13, x14, x15, x16, x17, x18, x19, x20, x21, x22, x23, x24, x25, x26, x27, x28, x29⟩

/-- Row `n` of the reference's eight row-major inputs. -/
abbrev rowAt : Row := rowOf x0 x1 x2 x3 x4 x5 x6 x7 n

/-! ## The index maps of the two rank-3 products and of the condition flag's broadcast -/

theorem lidx0_eq (s : Fin 4) (h k : Fin 128) : lidx_main_v0 (ix3 n s h) k = ix3 n s k :=
  funext fun a => by match a with | ⟨0, _⟩ => rfl | ⟨1, _⟩ => rfl | ⟨2, _⟩ => rfl
theorem ridx0_eq (s : Fin 4) (h k : Fin 128) : ridx_main_v0 (ix3 n s h) k = ix2 k h :=
  funext fun a => by match a with | ⟨0, _⟩ => rfl | ⟨1, _⟩ => rfl
theorem bidx0_eq (s : Fin 4) (h : Fin 128) : idx_main_v1 (idx_main_v2 (ix3 n s h)) = ix1 h :=
  funext fun a => by match a with | ⟨0, _⟩ => rfl
theorem lidx5_eq (s : Fin 4) (h k : Fin 128) : lidx_main_v5 (ix3 n s h) k = ix3 n s k :=
  funext fun a => by match a with | ⟨0, _⟩ => rfl | ⟨1, _⟩ => rfl | ⟨2, _⟩ => rfl
theorem ridx5_eq (s : Fin 4) (h k : Fin 128) : ridx_main_v5 (ix3 n s h) k = ix2 k h :=
  funext fun a => by match a with | ⟨0, _⟩ => rfl | ⟨1, _⟩ => rfl
theorem bidx5_eq (s : Fin 4) (h : Fin 128) : idx_main_v6 (idx_main_v7 (ix3 n s h)) = ix1 h :=
  funext fun a => by match a with | ⟨0, _⟩ => rfl
theorem cidx19_eq (h : Fin 128) : idx_main_v19 (ix2 n h) = ix2 n (0 : Fin 1) :=
  funext fun a => by match a with | ⟨0, _⟩ => rfl | ⟨1, _⟩ => rfl

/-! ## The predicate poolings -/

/-- One predicate's dense layer, first input. -/
theorem v3_row (s : Fin 4) (h : Fin 128) :
    val_main_v3 (F := Ideal) x4 x10 x11 (ix3 n s h) = dense x10 x11 (fun k => x4 (ix3 n s k)) h := by
  rw [val_main_v3_apply, val_main_v0_apply, val_main_v2_apply, val_main_v1_apply, bidx0_eq]
  simp only [lidx0_eq, ridx0_eq]
  rfl

/-- One predicate's dense layer, second input. -/
theorem v8_row (s : Fin 4) (h : Fin 128) :
    val_main_v8 (F := Ideal) x5 x10 x11 (ix3 n s h) = dense x10 x11 (fun k => x5 (ix3 n s k)) h := by
  rw [val_main_v8_apply, val_main_v5_apply, val_main_v7_apply, val_main_v6_apply, bidx5_eq]
  simp only [lidx5_eq, ridx5_eq]
  rfl

/-- The first pooling: the least of the four predicates' dense layers. -/
theorem v4_row (h : Fin 128) :
    val_main_v4 (F := Ideal) x4 x10 x11 (ix2 n h) = pool x10 x11 (fun s k => x4 (ix3 n s k)) h := by
  unfold val_main_v4 val_main_cst
  rw [reduceMin4_apply _ _ (by decide) _ n h, v3_row, v3_row, v3_row, v3_row]
  rfl

/-- The second pooling. -/
theorem v9_row (h : Fin 128) :
    val_main_v9 (F := Ideal) x5 x10 x11 (ix2 n h) = pool x10 x11 (fun s k => x5 (ix3 n s k)) h := by
  unfold val_main_v9 val_main_cst_0
  rw [reduceMin4_apply _ _ (by decide) _ n h, v8_row, v8_row, v8_row, v8_row]
  rfl

include x0 x1 x2 x3 x4 x5 x6 x7 x8 x9 x10 x11 x12 x13 x14 x15 x16 x17 x18 x19 x20 x21 x22 x23 x24 x25 x26 x27 x28 x29 n

/-! ## The embeddings and the node layer -/

/-- The operator embedding. -/
theorem v14_row (h : Fin 128) :
    val_main_v14 (F := Ideal) x0 x1 x8 x9 (ix2 n h) = opEmb (W x8 x9 x10 x11 x12 x13 x14 x15 x16 x17 x18 x19 x20 x21 x22 x23 x24 x25 x26 x27 x28 x29) (rowAt x0 x1 x2 x3 x4 x5 x6 x7 n) h := by
  unfold val_main_v14 val_main_v11 val_main_v13 val_main_v12 val_main_v10
  simp only [dense_host_apply' dot_S65536x64_S64x128_S65536x128_1_0_0_1_n_n rfl, cat2_apply (A := 32) (B := 32) (C := 64) _ _ _ rfl]
  rfl

/-- The bitmap embedding, scaled by the condition flag. -/
theorem v20_row (h : Fin 128) :
    val_main_v20 (F := Ideal) x2 x3 x12 x13 (ix2 n h) = bmEmb (W x8 x9 x10 x11 x12 x13 x14 x15 x16 x17 x18 x19 x20 x21 x22 x23 x24 x25 x26 x27 x28 x29) (rowAt x0 x1 x2 x3 x4 x5 x6 x7 n) h := by
  unfold val_main_v20 val_main_v18 val_main_v15 val_main_v17 val_main_v16
  simp only [mulf_apply, dense_host_apply' dot_S65536x1000_S1000x128_S65536x128_1_0_0_1_n_n rfl, val_main_v19_apply, cidx19_eq]
  rfl

/-- The node embedding. -/
theorem v26_row (h : Fin 256) :
    val_main_v26 (F := Ideal) x0 x1 x2 x3 x4 x5 x8 x9 x10 x11 x12 x13 x16 x17 (ix2 n h) = nodeEmb (W x8 x9 x10 x11 x12 x13 x14 x15 x16 x17 x18 x19 x20 x21 x22 x23 x24 x25 x26 x27 x28 x29) (rowAt x0 x1 x2 x3 x4 x5 x6 x7 n) h := by
  unfold val_main_v26 val_main_call0_v0 val_main_call0_cst val_main_v25 val_main_v22 val_main_v24 val_main_v23 val_main_v21
  simp only [relu_host_apply, dense_host_apply' dot_S65536x512_S512x256_S65536x256_1_0_0_1_n_n rfl, cat4_apply (A := 128) (B := 128) (D := 128) (E := 128) (C := 512) _ _ _ _ _ rfl,
    v14_row x0 x1 x2 x3 x4 x5 x6 x7 x8 x9 x10 x11 x12 x13 x14 x15 x16 x17 x18 x19 x20 x21 x22 x23 x24 x25 x26 x27 x28 x29 n, v4_row, v9_row, v20_row x0 x1 x2 x3 x4 x5 x6 x7 x8 x9 x10 x11 x12 x13 x14 x15 x16 x17 x18 x19 x20 x21 x22 x23 x24 x25 x26 x27 x28 x29 n]
  rfl

/-! ## The column-count embeddings and the merging layers -/

/-- The left column-count embedding. -/
theorem v31_row (h : Fin 64) :
    val_main_v31 (F := Ideal) x6 x14 x15 (ix2 n h) = ccEmb (W x8 x9 x10 x11 x12 x13 x14 x15 x16 x17 x18 x19 x20 x21 x22 x23 x24 x25 x26 x27 x28 x29) (fun k => x6 (ix2 n k)) h := by
  unfold val_main_v31 val_main_call1_v0 val_main_call1_cst val_main_v30 val_main_v27 val_main_v29 val_main_v28
  simp only [relu_host_apply, dense_host_apply' dot_S65536x2_S2x64_S65536x64_1_0_0_1_n_n rfl]
  rfl

/-- The right column-count embedding. -/
theorem v36_row (h : Fin 64) :
    val_main_v36 (F := Ideal) x7 x14 x15 (ix2 n h) = ccEmb (W x8 x9 x10 x11 x12 x13 x14 x15 x16 x17 x18 x19 x20 x21 x22 x23 x24 x25 x26 x27 x28 x29) (fun k => x7 (ix2 n k)) h := by
  unfold val_main_v36 val_main_call2_v0 val_main_call2_cst val_main_v35 val_main_v32 val_main_v34 val_main_v33
  simp only [relu_host_apply, dense_host_apply' dot_S65536x2_S2x64_S65536x64_1_0_0_1_n_n rfl]
  rfl

/-- The first merging layer. -/
theorem v42_row (h : Fin 128) :
    val_main_v42 (F := Ideal) x0 x1 x2 x3 x4 x5 x6 x7 x8 x9 x10 x11 x12 x13 x14 x15 x16 x17 x18 x19 (ix2 n h)
      = relu (dense x18 x19 (cat3 384 (nodeEmb (W x8 x9 x10 x11 x12 x13 x14 x15 x16 x17 x18 x19 x20 x21 x22 x23 x24 x25 x26 x27 x28 x29) (rowAt x0 x1 x2 x3 x4 x5 x6 x7 n)) (ccEmb (W x8 x9 x10 x11 x12 x13 x14 x15 x16 x17 x18 x19 x20 x21 x22 x23 x24 x25 x26 x27 x28 x29) (fun k => x6 (ix2 n k))) (ccEmb (W x8 x9 x10 x11 x12 x13 x14 x15 x16 x17 x18 x19 x20 x21 x22 x23 x24 x25 x26 x27 x28 x29) (fun k => x7 (ix2 n k))))) h := by
  unfold val_main_v42 val_main_call3_v0 val_main_call3_cst val_main_v41 val_main_v38 val_main_v40 val_main_v39 val_main_v37
  simp only [relu_host_apply, dense_host_apply' dot_S65536x384_S384x128_S65536x128_1_0_0_1_n_n rfl, cat3_apply (A := 256) (B := 64) (D := 64) (C := 384) _ _ _ _ rfl,
    v26_row x0 x1 x2 x3 x4 x5 x6 x7 x8 x9 x10 x11 x12 x13 x14 x15 x16 x17 x18 x19 x20 x21 x22 x23 x24 x25 x26 x27 x28 x29 n, v31_row x0 x1 x2 x3 x4 x5 x6 x7 x8 x9 x10 x11 x12 x13 x14 x15 x16 x17 x18 x19 x20 x21 x22 x23 x24 x25 x26 x27 x28 x29 n, v36_row x0 x1 x2 x3 x4 x5 x6 x7 x8 x9 x10 x11 x12 x13 x14 x15 x16 x17 x18 x19 x20 x21 x22 x23 x24 x25 x26 x27 x28 x29 n]

/-- The merged features. -/
theorem v47_row (h : Fin 64) :
    val_main_v47 (F := Ideal) x0 x1 x2 x3 x4 x5 x6 x7 x8 x9 x10 x11 x12 x13 x14 x15 x16 x17 x18 x19 x20 x21 (ix2 n h) = merged (W x8 x9 x10 x11 x12 x13 x14 x15 x16 x17 x18 x19 x20 x21 x22 x23 x24 x25 x26 x27 x28 x29) (rowAt x0 x1 x2 x3 x4 x5 x6 x7 n) h := by
  unfold val_main_v47 val_main_call4_v0 val_main_call4_cst val_main_v46 val_main_v43 val_main_v45 val_main_v44
  simp only [relu_host_apply, dense_host_apply' dot_S65536x128_S128x64_S65536x64_1_0_0_1_n_n rfl, v42_row x0 x1 x2 x3 x4 x5 x6 x7 x8 x9 x10 x11 x12 x13 x14 x15 x16 x17 x18 x19 x20 x21 x22 x23 x24 x25 x26 x27 x28 x29 n]
  rfl

/-! ## The two heads -/

/-- The cost head before its logistic function. -/
theorem v56_row (j : Fin 1) :
    val_main_v56 (F := Ideal) x0 x1 x2 x3 x4 x5 x6 x7 x8 x9 x10 x11 x12 x13 x14 x15 x16 x17 x18 x19 x20 x21 x22 x23 x24 x25 (ix2 n j)
      = dense x24 x25 (relu (dense x22 x23 (merged (W x8 x9 x10 x11 x12 x13 x14 x15 x16 x17 x18 x19 x20 x21 x22 x23 x24 x25 x26 x27 x28 x29) (rowAt x0 x1 x2 x3 x4 x5 x6 x7 n)))) j := by
  unfold val_main_v56 val_main_v53 val_main_v55 val_main_v54 val_main_v52 val_main_call5_v0 val_main_call5_cst val_main_v51
    val_main_v48 val_main_v50 val_main_v49
  simp only [relu_host_apply, dense_host_apply' dot_S65536x32_S32x1_S65536x1_1_0_0_1_n_n rfl,
    dense_host_apply' dot_S65536x64_S64x32_S65536x32_1_0_0_1_n_n rfl, v47_row x0 x1 x2 x3 x4 x5 x6 x7 x8 x9 x10 x11 x12 x13 x14 x15 x16 x17 x18 x19 x20 x21 x22 x23 x24 x25 x26 x27 x28 x29 n]

/-- The cardinality head before its logistic function. -/
theorem v71_row (j : Fin 1) :
    val_main_v71 (F := Ideal) x0 x1 x2 x3 x4 x5 x6 x7 x8 x9 x10 x11 x12 x13 x14 x15 x16 x17 x18 x19 x20 x21 x26 x27 x28 x29 (ix2 n j)
      = dense x28 x29 (relu (dense x26 x27 (merged (W x8 x9 x10 x11 x12 x13 x14 x15 x16 x17 x18 x19 x20 x21 x22 x23 x24 x25 x26 x27 x28 x29) (rowAt x0 x1 x2 x3 x4 x5 x6 x7 n)))) j := by
  unfold val_main_v71 val_main_v68 val_main_v70 val_main_v69 val_main_v67 val_main_call6_v0 val_main_call6_cst val_main_v66
    val_main_v63 val_main_v65 val_main_v64
  simp only [relu_host_apply, dense_host_apply' dot_S65536x32_S32x1_S65536x1_1_0_0_1_n_n rfl,
    dense_host_apply' dot_S65536x64_S64x32_S65536x32_1_0_0_1_n_n rfl, v47_row x0 x1 x2 x3 x4 x5 x6 x7 x8 x9 x10 x11 x12 x13 x14 x15 x16 x17 x18 x19 x20 x21 x22 x23 x24 x25 x26 x27 x28 x29 n]

/-- The cost head. -/
theorem v62_row (j : Fin 1) :
    val_main_v62 (F := Ideal) x0 x1 x2 x3 x4 x5 x6 x7 x8 x9 x10 x11 x12 x13 x14 x15 x16 x17 x18 x19 x20 x21 x22 x23 x24 x25 (ix2 n j) = head x22 x23 x24 x25 (merged (W x8 x9 x10 x11 x12 x13 x14 x15 x16 x17 x18 x19 x20 x21 x22 x23 x24 x25 x26 x27 x28 x29) (rowAt x0 x1 x2 x3 x4 x5 x6 x7 n)) j := by
  unfold val_main_v62 val_main_v61 val_main_cst_2 val_main_v60 val_main_v59 val_main_cst_1 val_main_v58 val_main_v57
  rw [logistic_host_apply, v56_row x0 x1 x2 x3 x4 x5 x6 x7 x8 x9 x10 x11 x12 x13 x14 x15 x16 x17 x18 x19 x20 x21 x22 x23 x24 x25 x26 x27 x28 x29 n]
  rfl

/-- The cardinality head. -/
theorem v77_row (j : Fin 1) :
    val_main_v77 (F := Ideal) x0 x1 x2 x3 x4 x5 x6 x7 x8 x9 x10 x11 x12 x13 x14 x15 x16 x17 x18 x19 x20 x21 x26 x27 x28 x29 (ix2 n j) = head x26 x27 x28 x29 (merged (W x8 x9 x10 x11 x12 x13 x14 x15 x16 x17 x18 x19 x20 x21 x22 x23 x24 x25 x26 x27 x28 x29) (rowAt x0 x1 x2 x3 x4 x5 x6 x7 n)) j := by
  unfold val_main_v77 val_main_v76 val_main_cst_4 val_main_v75 val_main_v74 val_main_cst_3 val_main_v73 val_main_v72
  rw [logistic_host_apply, v71_row x0 x1 x2 x3 x4 x5 x6 x7 x8 x9 x10 x11 x12 x13 x14 x15 x16 x17 x18 x19 x20 x21 x22 x23 x24 x25 x26 x27 x28 x29 n]
  rfl

/-! ## The result -/

/-- Row `n` of the reference's result is the network of row `n` of its inputs. -/
theorem v78_row (q : Fin 2) :
    val_main_v78 (F := Ideal) x0 x1 x2 x3 x4 x5 x6 x7 x8 x9 x10 x11 x12 x13 x14 x15 x16 x17 x18 x19 x20 x21 x22 x23 x24 x25 x26 x27 x28 x29 (ix2 n q) = net (W x8 x9 x10 x11 x12 x13 x14 x15 x16 x17 x18 x19 x20 x21 x22 x23 x24 x25 x26 x27 x28 x29) (rowAt x0 x1 x2 x3 x4 x5 x6 x7 n) q := by
  unfold val_main_v78
  simp only [cat2_apply (A := 1) (B := 1) (C := 2) _ _ _ rfl, v62_row x0 x1 x2 x3 x4 x5 x6 x7 x8 x9 x10 x11 x12 x13 x14 x15 x16 x17 x18 x19 x20 x21 x22 x23 x24 x25 x26 x27 x28 x29 n, v77_row x0 x1 x2 x3 x4 x5 x6 x7 x8 x9 x10 x11 x12 x13 x14 x15 x16 x17 x18 x19 x20 x21 x22 x23 x24 x25 x26 x27 x28 x29 n]
  rfl

end Cert.ReferenceIdeal.Rows

end
-- ==== Proof.lean ====
/-
  A row-wise network of dense layers, computed block by block in one kernel and array by array on the host.

  The kernel streams blocks of 1024 rows of the eight row-major inputs through one fused body and keeps the
  weights resident; the reference applies the same layers to whole arrays.  Read at one row, both are the same
  function of that row and of the weights: the operator and bitmap embeddings, the two predicate poolings (a
  minimum over the four predicates), the node layer, the column-count layers, two merging layers and two heads
  ending in the logistic function.  At the ideal values the kernel's narrowing of its matrix operands is the
  identity, its matrix products into a zero accumulator and the host's `dot_general` are the same sums, the
  kernel's running minimum and the host's reduction from +∞ are the same minimum, and the kernel's logistic
  function is the host's one over one plus the exponential of the negation.  So the kernel's result array (its 64 blocks
  tile the rows) and the reference's are one array; no law beyond these is used, and the inputs' finiteness is not
  needed.  The three frames are the programs' runs with the results dropped, and the ideal pass changed nothing.
-/
import proofs.«104223_j84061099917535_1_alg».proof.Defs
import proofs.«104223_j84061099917535_1_alg».proof.Proof.Gen.Kernel
import proofs.«104223_j84061099917535_1_alg».proof.Proof.KernelFrameP
import proofs.«104223_j84061099917535_1_alg».proof.Proof.Gen.KernelIdeal
import proofs.«104223_j84061099917535_1_alg».proof.Proof.KernelIdealFrameP
import proofs.«104223_j84061099917535_1_alg».proof.Proof.KernelIdealValueP
import proofs.«104223_j84061099917535_1_alg».proof.Proof.Gen.ReferenceIdeal
import proofs.«104223_j84061099917535_1_alg».proof.Proof.Gen.Pre_finite_inputs
import proofs.«104223_j84061099917535_1_alg».proof.Proof.ReferenceRunP
import proofs.«104223_j84061099917535_1_alg».proof.Proof.ReferenceReadP
import proofs.«104223_j84061099917535_1_alg».proof.Proof.KernelValue
import proofs.«104223_j84061099917535_1_alg».proof.Proof.RefRows
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network of every row: the kernel's 64 blocks of 1024 rows, and the reference's
    whole-array layers read at a row, of arguments that agree. -/
theorem algebraic : Cert.algebraic_KernelIdeal_ReferenceIdeal := by
  intro m ρ m' ρ' _ hagree
  refine ⟨fun c => Cert.KernelIdeal.RowValue.result m c,
    (θ_run Cert.KernelIdeal.defs _ _).mono
      (fun r h c => ⟨(h c).1.trans (Cert.KernelIdeal.RowValue.final m c), (h c).2⟩)
      (Cert.KernelIdeal.ValueP.run_blocks (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v78_eq]
  funext i
  obtain ⟨n, q, rfl⟩ : ∃ (n : Fin 65536) (q : Fin 2), i = ix2 n q := ⟨i 0, i 1, eq_ix2 i⟩
  rw [Cert.ReferenceIdeal.Rows.v78_row,
    (hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2.1,
    (hagree c).2.2.2.2.2.2.2.2.2.2.2.2.2.1,
    (hagree c).2.2.2.2.2.2.2.2.2.2.2.2.2.2.1,
    (hagree c).2.2.2.2.2.2.2.2.2.2.2.2.2.2.2.1,
    (hagree c).2.2.2.2.2.2.2.2.2.2.2.2.2.2.2.2.1,
    (hagree c).2.2.2.2.2.2.2.2.2.2.2.2.2.2.2.2.2.1,
    (hagree c).2.2.2.2.2.2.2.2.2.2.2.2.2.2.2.2.2.2.1,
    (hagree c).2.2.2.2.2.2.2.2.2.2.2.2.2.2.2.2.2.2.2.1,
    (hagree c).2.2.2.2.2.2.2.2.2.2.2.2.2.2.2.2.2.2.2.2.1,
    (hagree c).2.2.2.2.2.2.2.2.2.2.2.2.2.2.2.2.2.2.2.2.2.1,
    (hagree c).2.2.2.2.2.2.2.2.2.2.2.2.2.2.2.2.2.2.2.2.2.2.1,
    (hagree c).2.2.2.2.2.2.2.2.2.2.2.2.2.2.2.2.2.2.2.2.2.2.2.1,
    (hagree c).2.2.2.2.2.2.2.2.2.2.2.2.2.2.2.2.2.2.2.2.2.2.2.2.1,
    (hagree c).2.2.2.2.2.2.2.2.2.2.2.2.2.2.2.2.2.2.2.2.2.2.2.2.2.1,
    (hagree c).2.2.2.2.2.2.2.2.2.2.2.2.2.2.2.2.2.2.2.2.2.2.2.2.2.2.1,
    (hagree c).2.2.2.2.2.2.2.2.2.2.2.2.2.2.2.2.2.2.2.2.2.2.2.2.2.2.2.1,
    (hagree c).2.2.2.2.2.2.2.2.2.2.2.2.2.2.2.2.2.2.2.2.2.2.2.2.2.2.2.2.1,
    (hagree c).2.2.2.2.2.2.2.2.2.2.2.2.2.2.2.2.2.2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
